-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S32768x1024 : Shape := ⟨2, ![32768, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_

variable [Facts]

def fn {F : FTy → Type} [FloatOps F] (main_arg0 : FVec F S8192x1024 .f32) (main_arg1 : FVec F S32768x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  main_v8
-- ==== Kernel.lean ====
abbrev S8192x1024 : Shape := ⟨2, ![8192, 1024]⟩
abbrev S32768x1024 : Shape := ⟨2, ![32768, 1024]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S32768x1 : Shape := ⟨2, ![32768, 1]⟩
abbrev S1x32768 : Shape := ⟨2, ![1, 32768]⟩
abbrev S512x1024 : Shape := ⟨2, ![512, 1024]⟩
abbrev S512x1 : Shape := ⟨2, ![512, 1]⟩
abbrev S1x1024 : Shape := ⟨2, ![1, 1024]⟩
abbrev S512 : Shape := ⟨1, ![512]⟩
abbrev S8192 : Shape := ⟨1, ![8192]⟩
abbrev S_ : Shape := ⟨0, ![]⟩

abbrev nBuf : Space → Nat
  | .hbm => 18
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S32768x1024, .f32⟩
  | .hbm, ⟨2, _⟩ => ⟨S8192x1024, .bf16⟩
  | .hbm, ⟨3, _⟩ => ⟨S8192x1, .f32⟩
  | .hbm, ⟨4, _⟩ => ⟨S32768x1024, .bf16⟩
  | .hbm, ⟨5, _⟩ => ⟨S32768x1, .f32⟩
  | .hbm, ⟨6, _⟩ => ⟨S1x32768, .f32⟩
  | .hbm, ⟨7, _⟩ => ⟨S8192x1, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1, .f32⟩
  | .local _ .vmem, ⟨11, _⟩ => ⟨S1024x1, .f32⟩
  | .local _ .vmem, ⟨12, _⟩ => ⟨S512x1024, .bf16⟩
  | .local _ .vmem, ⟨13, _⟩ => ⟨S512x1024, .bf16⟩
  | .local _ .vmem, ⟨14, _⟩ => ⟨S512x1, .f32⟩
  | .local _ .vmem, ⟨15, _⟩ => ⟨S512x1, .f32⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![16, 32], ![false, false]⟩

def k2_cond2 (i : grid2.Coords) : BitVec 1 :=
  let arg1 : BitVec 32 := BitVec.ofNat 32 (i 1).val
  let c31_i32 : BitVec 32 := 31#32
  let v43 : BitVec 1 := Scalar.cmpi .eq arg1 c31_i32
  let v44 : BitVec 32 := Scalar.extui v43
  let c0_i32_16 : BitVec 32 := 0#32
  let v45 : BitVec 1 := Scalar.cmpi .ne v44 c0_i32_16
  v45

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S32768x1_S1x32768 : S32768x1.ShapeCasts S1x32768
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  iota_S512x1_d0_w32 : S512x1.Iotas .tc 32 [0]
  iota_S1x1024_d1_w32 : S1x1024.Iotas .tc 32 [1]
  reduces_S512x1024_S512 : S512x1024.Reduces [1] S512
  shapeCasts_S512_S512x1 : S512.ShapeCasts S512x1
  shapeCasts_S8192x1_S8192 : S8192x1.ShapeCasts S8192
  bcast_S_S8192 : S_.BroadcastsInDim S8192 (![] : Fin 0 → Fin S8192.rank)
  reducesTo_S8192_S_d0 : S8192.ReducesTo [0] S_
  h_S_ : 0 < S_.numel
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S32768x1024.size a
  hwx1_0 : ∀ i : grid1.Coords, EltTy.bits .f32 = 32 ∨ (Rect.block (s := S32768x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S32768x1024.size a
  hwx1_1 : ∀ i : grid1.Coords, EltTy.bits .bf16 = 32 ∨ (Rect.block (s := S32768x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S32768x1.size a
  hwx1_2 : ∀ i : grid1.Coords, EltTy.bits .f32 = 32 ∨ (Rect.block (s := S32768x1) S1024x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1.size a ≤ S8192x1.size a
  hwx2_1 : ∀ i : grid2.Coords, EltTy.bits .f32 = 32 ∨ (Rect.block (s := S8192x1) S512x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S32768x1024.size a
  hwx2_2 : ∀ i : grid2.Coords, EltTy.bits .bf16 = 32 ∨ (Rect.block (s := S32768x1024) S1024x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x32768.size a
  hwx2_3 : ∀ i : grid2.Coords, EltTy.bits .f32 = 32 ∨ (Rect.block (s := S1x32768) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1.size a ≤ S8192x1.size a
  hwx2_4 : ∀ i : grid2.Coords, EltTy.bits .f32 = 32 ∨ (Rect.block (s := S8192x1) S512x1.size (cc2_transform_4 i) (hinb2_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S1024x1024.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_1) S512x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1_0) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S512x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S32768x1024 : Shape := ⟨2, ![32768, 1024]⟩
abbrev S_ : Shape := ⟨0, ![]⟩
abbrev S8192 : Shape := ⟨1, ![8192]⟩
abbrev S8192x1 : Shape := ⟨2, ![8192, 1]⟩
abbrev S32768 : Shape := ⟨1, ![32768]⟩
abbrev S32768x1 : Shape := ⟨2, ![32768, 1]⟩
abbrev S1x32768 : Shape := ⟨2, ![1, 32768]⟩
abbrev S8192x32768 : Shape := ⟨2, ![8192, 32768]⟩
abbrev S1024x32768 : Shape := ⟨2, ![1024, 32768]⟩
abbrev S8192x2 : Shape := ⟨2, ![8192, 2]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S32768x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S32768x1024, .f32⟩
  | .hbm, ⟨27, _⟩ => ⟨S_, .f32⟩
  | .hbm, ⟨28, _⟩ => ⟨S32768, .f32⟩
  | .hbm, ⟨29, _⟩ => ⟨S1x32768, .f32⟩
  | .hbm, ⟨30, _⟩ => ⟨S8192x32768, .f32⟩
  | .hbm, ⟨31, _⟩ => ⟨S8192x32768, .f32⟩
  | .hbm, ⟨32, _⟩ => ⟨S8192x32768, .f32⟩
  | .hbm, ⟨33, _⟩ => ⟨S1024x32768, .f32⟩
  | .hbm, ⟨34, _⟩ => ⟨S8192x32768, .f32⟩
  | .hbm, ⟨35, _⟩ => ⟨S_, .f32⟩
  | .hbm, ⟨36, _⟩ => ⟨S8192x32768, .f32⟩
  | .hbm, ⟨37, _⟩ => ⟨S8192x32768, .f32⟩
  | .hbm, ⟨38, _⟩ => ⟨S8192x32768, .f32⟩
  | .hbm, ⟨39, _⟩ => ⟨S_, .f32⟩
  | .hbm, ⟨40, _⟩ => ⟨S8192x32768, .f32⟩
  | .hbm, ⟨41, _⟩ => ⟨S8192x32768, .f32⟩
  | .hbm, ⟨42, _⟩ => ⟨S8192x32768, .f32⟩
  | .hbm, ⟨43, _⟩ => ⟨S8192, .i32⟩
  | .hbm, ⟨44, _⟩ => ⟨S_, .i32⟩
  | .hbm, ⟨45, _⟩ => ⟨S8192, .i32⟩
  | .hbm, ⟨46, _⟩ => ⟨S8192, .i1⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S8192, .i32⟩
  | .hbm, ⟨51, _⟩ => ⟨S_, .i32⟩
  | .hbm, ⟨52, _⟩ => ⟨S8192, .i32⟩
  | .hbm, ⟨53, _⟩ => ⟨S8192, .i1⟩
  | .hbm, ⟨54, _⟩ => ⟨S_, .i32⟩
  | .hbm, ⟨55, _⟩ => ⟨S8192, .i32⟩
  | .hbm, ⟨56, _⟩ => ⟨S8192, .i32⟩
  | .hbm, ⟨57, _⟩ => ⟨S8192, .i32⟩
  | .hbm, ⟨58, _⟩ => ⟨S8192x1, .i32⟩
  | .hbm, ⟨59, _⟩ => ⟨S8192x1, .i32⟩
  | .hbm, ⟨60, _⟩ => ⟨S8192x2, .i32⟩
  | .hbm, ⟨61, _⟩ => ⟨S_, .f32⟩
  | .hbm, ⟨62, _⟩ => ⟨S8192, .f32⟩
  | .hbm, ⟨63, _⟩ => ⟨S8192x32768, .f32⟩
  | .hbm, ⟨64, _⟩ => ⟨S_, .f32⟩
  | .hbm, ⟨65, _⟩ => ⟨S8192, .f32⟩
  | .hbm, ⟨66, _⟩ => ⟨S_, .f32⟩
  | .hbm, ⟨67, _⟩ => ⟨S8192, .f32⟩
  | .hbm, ⟨68, _⟩ => ⟨S8192, .f32⟩
  | .hbm, ⟨69, _⟩ => ⟨S8192, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  reducesTo_S32768x1024_S32768_d1 : S32768x1024.ReducesTo [1] S32768
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  bcast_S32768_S1x32768_1 : S32768.BroadcastsInDim S1x32768 (![1] : Fin 1 → Fin S1x32768.rank)
  bcast_S8192x1_S8192x32768_0_1 : S8192x1.BroadcastsInDim S8192x32768 (![0, 1] : Fin 2 → Fin S8192x32768.rank)
  bcast_S1x32768_S8192x32768_0_1 : S1x32768.BroadcastsInDim S8192x32768 (![0, 1] : Fin 2 → Fin S8192x32768.rank)
  transposes_S32768x1024_S1024x32768_1_0 : S32768x1024.Transposes [1, 0] S1024x32768
  bcast_S_S8192x32768 : S_.BroadcastsInDim S8192x32768 (![] : Fin 0 → Fin S8192x32768.rank)
  bcast_S_S8192 : S_.BroadcastsInDim S8192 (![] : Fin 0 → Fin S8192.rank)
  concatenates_S8192x1_S8192x1_S8192x2_d1 : Shape.Concatenates [S8192x1, S8192x1] S8192x2 1
  reducesTo_S8192x32768_S8192_d1 : S8192x32768.ReducesTo [1] S8192
  reducesTo_S8192_S_d0 : S8192.ReducesTo [0] S_
  dot_S8192x1024_S1024x32768_S8192x32768_1_0_0_1_n_n_wf : DotDims.WF S8192x1024 S1024x32768 S8192x32768 [1] [0] [0] [1] [] []
  scatter_S8192x32768_S8192x2_S8192_n_01_01_1_wf : ScatterDims.WF S8192x32768 S8192x2 S8192 [] [0, 1] [0, 1] 1

variable [Facts₀]

def dot_S8192x1024_S1024x32768_S8192x32768_1_0_0_1_n_n : DotDims S8192x1024 S1024x32768 S8192x32768 where
  lhsContracting := [1]
  rhsContracting := [0]
  lhsNonContracting := [0]
  rhsNonContracting := [1]
  lhsBatch := []
  rhsBatch := []
  wf := dot_S8192x1024_S1024x32768_S8192x32768_1_0_0_1_n_n_wf
def scatter_S8192x32768_S8192x2_S8192_n_01_01_1 : ScatterDims S8192x32768 S8192x2 S8192 where
  updateWindowDims := []
  insertedWindowDims := [0, 1]
  scatterDimsToOperandDims := [0, 1]
  indexVectorDim := 1
  wf := scatter_S8192x32768_S8192x2_S8192_n_01_01_1_wf

class Facts : Prop extends Facts₀ where

variable [Facts]
-- ==== Proof.K.R0.lean ====
/- Region 0 of @main (the row-normalising call on the first argument), at any float instance and at a parameter
   `V`, the TensorCore's buffer contents when the region is entered: each window's block at a grid point, what the body
   leaves in the two output blocks as functions of the input block (the normalised rows, and the row sums of their
   squares), the body's triple, the proof data of the pipeline and the body obligation at every point. -/
import proofs.«110562_j74887049773256_1_alg».proof.Proof.Gen.Kernel.Launch
import proofs.«110562_j74887049773256_1_alg».proof.Proof.Gen.Kernel.Skeleton
import proofs.«110562_j74887049773256_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point (it is fetched at every point), for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 × 1024 block and the whole 1024 × 1 column, as the body's loads and stores address them. -/
abbrev rM0 : Rect S1024x1024 := Rect.unit (s := S1024x1024) ![0, 0] S1024x1024.size inb_S1024x1024_S1024x1024_0_0
abbrev rC0 : Rect S1024x1 := Rect.unit (s := S1024x1) ![0, 0] S1024x1.size inb_S1024x1_S1024x1_0_0

/-- The normalised block the body stores (each row divided by the larger of its norm and the floor), from the input block. -/
def out0_1 (x0 : Vec F S1024x1024 .f32) : Vec F S1024x1024 .bf16 :=
  View.canon [⟨rM0, k0_pay1 (View.ld x0 rM0)⟩]

/-- The column of row sums of squares of the normalised block, from the input block. -/
def out0_2 (x0 : Vec F S1024x1024 .f32) : Vec F S1024x1 .f32 :=
  View.canon [⟨rC0, k0_pay2 (View.ld x0 rM0)⟩]

theorem cover0_1 (p0 : Vec F S1024x1024 .bf16) (y : S1024x1024.Idx) :
    ∃ pc ∈ ([⟨rM0, p0⟩] : List (View.Piece (Elt F) S1024x1024 .bf16)), y ∈ pc.1.set :=
  View.cover_of_tiled [⟨rM0, p0⟩] S1024x1024.size (by rfl) y

theorem cover0_2 (p0 : Vec F S1024x1 .f32) (y : S1024x1.Idx) :
    ∃ pc ∈ ([⟨rC0, p0⟩] : List (View.Piece (Elt F) S1024x1 .f32)), y ∈ pc.1.set :=
  View.cover_of_tiled [⟨rC0, p0⟩] S1024x1.size (by rfl) y

set_option maxHeartbeats 1000000 in
/-- The body on whole staging memrefs, the input's at contents `x0` and the outputs' at anything, runs to the
    continuation holding the input's as it was and each output's at its function of `x0`. -/
theorem sound_kernel0 (c : Dev nD) (E : Set ℕ) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1 .f32) (harg3 : arg3.IsWhole)
    (x0 : Vec F S1024x1024 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The proof data of the pipeline on core `c`: the arrays as the region finds them; after the body at point `t` the
    input's buffer at its block and each output's at its function of that block; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/- Region 1 of @main (the row-normalising call on the second argument), at any float instance and at a parameter
   `V`, the TensorCore's buffer contents when the region is entered: each window's block at a grid point, what the body
   leaves in the two output blocks as functions of the input block (the normalised rows, and the row sums of their
   squares), the body's triple, the proof data of the pipeline and the body obligation at every point. -/
import proofs.«110562_j74887049773256_1_alg».proof.Proof.Gen.Kernel.Launch
import proofs.«110562_j74887049773256_1_alg».proof.Proof.Gen.Kernel.Skeleton
import proofs.«110562_j74887049773256_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point (it is fetched at every point), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 1024 × 1024 block and the whole 1024 × 1 column, as the body's loads and stores address them. -/
abbrev rM1 : Rect S1024x1024 := Rect.unit (s := S1024x1024) ![0, 0] S1024x1024.size inb_S1024x1024_S1024x1024_0_0
abbrev rC1 : Rect S1024x1 := Rect.unit (s := S1024x1) ![0, 0] S1024x1.size inb_S1024x1_S1024x1_0_0

/-- The normalised block the body stores (each row divided by the larger of its norm and the floor), from the input block. -/
def out1_1 (x0 : Vec F S1024x1024 .f32) : Vec F S1024x1024 .bf16 :=
  View.canon [⟨rM1, k1_pay1 (View.ld x0 rM1)⟩]

/-- The column of row sums of squares of the normalised block, from the input block. -/
def out1_2 (x0 : Vec F S1024x1024 .f32) : Vec F S1024x1 .f32 :=
  View.canon [⟨rC1, k1_pay2 (View.ld x0 rM1)⟩]

theorem cover1_1 (p0 : Vec F S1024x1024 .bf16) (y : S1024x1024.Idx) :
    ∃ pc ∈ ([⟨rM1, p0⟩] : List (View.Piece (Elt F) S1024x1024 .bf16)), y ∈ pc.1.set :=
  View.cover_of_tiled [⟨rM1, p0⟩] S1024x1024.size (by rfl) y

theorem cover1_2 (p0 : Vec F S1024x1 .f32) (y : S1024x1.Idx) :
    ∃ pc ∈ ([⟨rC1, p0⟩] : List (View.Piece (Elt F) S1024x1 .f32)), y ∈ pc.1.set :=
  View.cover_of_tiled [⟨rC1, p0⟩] S1024x1.size (by rfl) y

set_option maxHeartbeats 1000000 in
/-- The body on whole staging memrefs, the input's at contents `x0` and the outputs' at anything, runs to the
    continuation holding the input's as it was and each output's at its function of `x0`. -/
theorem sound_kernel1 (c : Dev nD) (E : Set ℕ) (i : grid1.Coords) (arg1 : Memref sig .tc .vmem S1024x1024 .f32) (harg1 : arg1.IsWhole) (arg2 : Memref sig .tc .vmem S1024x1024 .bf16) (harg2 : arg2.IsWhole) (arg3 : Memref sig .tc .vmem S1024x1 .f32) (harg3 : arg3.IsWhole)
    (x0 : Vec F S1024x1024 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0) ∗ owns (c : Thread nD τ) arg3 fullShare (out1_2 x0)) -∗ K ⟨⟩))
      ⊢ wp frame (wpE (defs₀ (F := F)) Variants.none c none) E (cc1__normalize_kernel i arg1 harg1 arg2 harg2 arg3 harg3) K := by
  simp only [cc1__normalize_kernel_eq_skeleton]; unfold cc1__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

/-- The proof data of the pipeline on core `c`: the arrays as the region finds them; after the body at point `t` the
    input's buffer at its block and each output's at its function of that block; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/- Region 2 of @main (the tiled nearest-row search), at any float instance and at a parameter `V`, the TensorCore's
   buffer contents when the region is entered. The grid is 16 row tiles by 32 column tiles, walked row tile by row tile;
   a scratch column carries the running minimum of a row tile through its 32 column tiles: reset to +∞ at the first
   column tile, lowered by each tile's row minima, and copied to the output block at the last column tile. -/
import proofs.«110562_j74887049773256_1_alg».proof.Proof.Gen.Kernel.Launch
import proofs.«110562_j74887049773256_1_alg».proof.Proof.Gen.Kernel.Skeleton
import proofs.«110562_j74887049773256_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body on whole staging memrefs, case by case -/

/-- The first branch's condition (the column-tile coordinate is 0), as the kernel's scalar chain computes it. -/
abbrev cond2_0 (i : grid2.Coords) : Prop :=
  (Scalar.cmpi .ne (Scalar.extui (Scalar.cmpi .eq (BitVec.ofNat 32 (i 1).val) 0#32)) 0#32) = 1#1

/-- The zero offsets of a rank-2 rectangle, however spelt. -/
theorem z2 : (![0, 0] : Fin 2 → Nat) = fun _ => 0 := by funext a; fin_cases a <;> rfl

/-- The tile's row minima from what the four whole-buffer loads read: each load reads its buffer's contents. -/
theorem pay3_loads (i : grid2.Coords) {v0 : View sig .tc .vmem S512x1024 .bf16} {v1 : View sig .tc .vmem S512x1 .f32}
    {v2 : View sig .tc .vmem S1024x1024 .bf16} {v3 : View sig .tc .vmem S1x1024 .f32}
    (f0 : v0.ty.Contents (Elt F)) (f1 : v1.ty.Contents (Elt F)) (f2 : v2.ty.Contents (Elt F)) (f3 : v3.ty.Contents (Elt F)) :
    k2_pay3 i (View.readAt (Elt F) v0 (Rect.unit ![0, 0] S512x1024.size inb_S512x1024_S512x1024_0_0).toLoadRect f0)
        (View.readAt (Elt F) v2 (Rect.unit ![0, 0] S1024x1024.size inb_S1024x1024_S1024x1024_0_0).toLoadRect f2)
        (View.readAt (Elt F) v1 (Rect.unit ![0, 0] S512x1.size inb_S512x1_S512x1_0_0).toLoadRect f1)
        (View.readAt (Elt F) v3 (Rect.unit ![0, 0] S1x1024.size inb_S1x1024_S1x1024_0_0).toLoadRect f3)
      = k2_pay3 i (View.read (Elt F) v0 f0) (View.read (Elt F) v2 f2) (View.read (Elt F) v1 f1) (View.read (Elt F) v3 f3) := by
  have e0 : View.readAt (Elt F) v0 (Rect.unit ![0, 0] S512x1024.size inb_S512x1024_S512x1024_0_0).toLoadRect f0 = View.read (Elt F) v0 f0 :=
    View.ld_unit_zero (S := S512x1024) z2 _ _
  have e1 : View.readAt (Elt F) v1 (Rect.unit ![0, 0] S512x1.size inb_S512x1_S512x1_0_0).toLoadRect f1 = View.read (Elt F) v1 f1 :=
    View.ld_unit_zero (S := S512x1) z2 _ _
  have e2 : View.readAt (Elt F) v2 (Rect.unit ![0, 0] S1024x1024.size inb_S1024x1024_S1024x1024_0_0).toLoadRect f2 = View.read (Elt F) v2 f2 :=
    View.ld_unit_zero (S := S1024x1024) z2 _ _
  have e3 : View.readAt (Elt F) v3 (Rect.unit ![0, 0] S1x1024.size inb_S1x1024_S1x1024_0_0).toLoadRect f3 = View.read (Elt F) v3 f3 :=
    View.ld_unit_zero (S := S1x1024) z2 _ _
  rw [e0, e1, e2, e3]

/-- One whole-buffer store, last, is what the buffer then reads. -/
theorem read_last_store {v : View sig .tc .vmem S512x1 .f32} (f : v.ty.Contents (Elt F)) (w : Vec F S512x1 .f32)
    (L : List (View.Piece (Elt F) S512x1 .f32)) :
    View.read (Elt F) v (v.writes (Elt F) f ((⟨Rect.unit ![0, 0] S512x1.size inb_S512x1_S512x1_0_0, w⟩ : View.Piece (Elt F) S512x1 .f32) :: L)) = w := by
  have hc : ∀ y : S512x1.Idx, ∃ p ∈ ((⟨Rect.unit ![0, 0] S512x1.size inb_S512x1_S512x1_0_0, w⟩ : View.Piece (Elt F) S512x1 .f32) :: L), y ∈ p.1.set :=
    fun y => ⟨(⟨Rect.unit ![0, 0] S512x1.size inb_S512x1_S512x1_0_0, w⟩ : View.Piece (Elt F) S512x1 .f32), List.Mem.head _,
      View.mem_set_unit_zero (S := S512x1) z2 inb_S512x1_S512x1_0_0 y⟩
  rw [View.read_writes_eq_canon v f _ hc]
  exact View.canon_cons_unit_zero (S := S512x1) z2 inb_S512x1_S512x1_0_0 w L

set_option maxHeartbeats 1000000 in
/-- The body at the FIRST column tile of a row tile (never a last one): on whole staging memrefs at the four input blocks,
    the output block at anything it hands back untouched, the scratch column at anything, it runs to the continuation
    holding the inputs as they were and the scratch column at the tile's row minima against +∞. -/
theorem sound_kernel2_A (c : Dev nD) (E : Set ℕ) (i : grid2.Coords)
    (arg2 : Memref sig .tc .vmem S512x1024 .bf16) (harg2 : arg2.IsWhole) (arg3 : Memref sig .tc .vmem S512x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S512x1 .f32) (harg6 : arg6.IsWhole) (arg7 : Memref sig .tc .vmem S512x1 .f32) (harg7 : arg7.IsWhole)
    (hc0 : cond2_0 i) (hc1 : ¬ k2_cond2 i = 1#1)
    (x0 : Vec F S512x1024 .bf16) (x1 : Vec F S512x1 .f32) (x2 : Vec F S1024x1024 .bf16) (x3 : Vec F S1x1024 .f32) (xo : Vec F S512x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k2_pay1 (k2_pay3 i x0 x2 x1 x3) (k2_pay2 (F := F)))) -∗ K ⟨⟩))
      ⊢ wp frame (wpE (defs₀ (F := F)) Variants.none c none) E (cc2__nn_min_kernel i arg2 harg2 arg3 harg3 arg4 harg4 arg5 harg5 arg6 harg6 arg7 harg7) K := by
  simp only [cc2__nn_min_kernel_eq_skeleton]; unfold cc2__nn_min_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%fo, %hfo, Ho⟩, ⟨%ds, %fs, -, Hs⟩, Hk⟩
  subst hf0; subst hf1; subst hf2; subst hf3; subst hfo
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Ho]
  · iexists fo; isplitr; · ipureintro; rfl
    iexact Ho
  iexists _; isplitr
  swap; · iexact Hs
  ipureintro
  sl_unfold_run_names
  refine (read_last_store _ _ _).trans ?_
  dsimp only
  rw [pay3_loads, View.readCov_unit_zero (S := S512x1) _ z2]

set_option maxHeartbeats 1000000 in
/-- The body at a column tile neither first nor last: the scratch column at `s` is lowered by the tile's row minima; the
    output block is handed back untouched. -/
theorem sound_kernel2_B (c : Dev nD) (E : Set ℕ) (i : grid2.Coords)
    (arg2 : Memref sig .tc .vmem S512x1024 .bf16) (harg2 : arg2.IsWhole) (arg3 : Memref sig .tc .vmem S512x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S512x1 .f32) (harg6 : arg6.IsWhole) (arg7 : Memref sig .tc .vmem S512x1 .f32) (harg7 : arg7.IsWhole)
    (hc0 : ¬ cond2_0 i) (hc1 : ¬ k2_cond2 i = 1#1)
    (x0 : Vec F S512x1024 .bf16) (x1 : Vec F S512x1 .f32) (x2 : Vec F S1024x1024 .bf16) (x3 : Vec F S1x1024 .f32) (xo : Vec F S512x1 .f32) (s : Vec F S512x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k2_pay1 (k2_pay3 i x0 x2 x1 x3) s)) -∗ K ⟨⟩))
      ⊢ wp frame (wpE (defs₀ (F := F)) Variants.none c none) E (cc2__nn_min_kernel i arg2 harg2 arg3 harg3 arg4 harg4 arg5 harg5 arg6 harg6 arg7 harg7) K := by
  simp only [cc2__nn_min_kernel_eq_skeleton]; unfold cc2__nn_min_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%fo, %hfo, Ho⟩, ⟨%fs, %hfs, Hs⟩, Hk⟩
  subst hf0; subst hf1; subst hf2; subst hf3; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Ho]
  · iexists fo; isplitr; · ipureintro; rfl
    iexact Ho
  iexists _; isplitr
  swap; · iexact Hs
  ipureintro
  sl_unfold_run_names
  refine (read_last_store _ _ _).trans ?_
  dsimp only
  rw [pay3_loads]
  exact congrArg (k2_pay1 _) (View.ld_unit_zero (S := S512x1) z2 inb_S512x1_S512x1_0_0 _)

set_option maxHeartbeats 1000000 in
/-- The body at the LAST column tile (never a first one): the scratch column at `s` is lowered by the tile's row minima,
    and the output block, at anything, is left at the same column. -/
theorem sound_kernel2_C (c : Dev nD) (E : Set ℕ) (i : grid2.Coords)
    (arg2 : Memref sig .tc .vmem S512x1024 .bf16) (harg2 : arg2.IsWhole) (arg3 : Memref sig .tc .vmem S512x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S512x1 .f32) (harg6 : arg6.IsWhole) (arg7 : Memref sig .tc .vmem S512x1 .f32) (harg7 : arg7.IsWhole)
    (hc0 : ¬ cond2_0 i) (hc1 : k2_cond2 i = 1#1)
    (x0 : Vec F S512x1024 .bf16) (x1 : Vec F S512x1 .f32) (x2 : Vec F S1024x1024 .bf16) (x3 : Vec F S1x1024 .f32) (s : Vec F S512x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay1 (k2_pay3 i x0 x2 x1 x3) s)
            ∗ owns (c : Thread nD τ) arg7 fullShare (k2_pay1 (k2_pay3 i x0 x2 x1 x3) s)) -∗ K ⟨⟩))
      ⊢ wp frame (wpE (defs₀ (F := F)) Variants.none c none) E (cc2__nn_min_kernel i arg2 harg2 arg3 harg3 arg4 harg4 arg5 harg5 arg6 harg6 arg7 harg7) K := by
  simp only [cc2__nn_min_kernel_eq_skeleton]; unfold cc2__nn_min_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%do_, %fo, -, Ho⟩, ⟨%fs, %hfs, Hs⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Ho]
  · iexists _; isplitr
    swap; · iexact Ho
    ipureintro
    sl_unfold_run_names
    refine (read_last_store _ _ _).trans ?_
    refine (View.readCov_unit_zero (S := S512x1) _ z2 inb_S512x1_S512x1_0_0 _).trans ?_
    dsimp only
    rw [pay3_loads]
    exact congrArg (k2_pay1 _) (View.ld_unit_zero (S := S512x1) z2 inb_S512x1_S512x1_0_0 _)
  iexists _; isplitr
  swap; · iexact Hs
  ipureintro
  sl_unfold_run_names
  refine (read_last_store _ _ _).trans ?_
  dsimp only
  rw [pay3_loads]
  exact congrArg (k2_pay1 _) (View.ld_unit_zero (S := S512x1) z2 inb_S512x1_S512x1_0_0 _)

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch column the kernel carries between points. -/
abbrev scM2 : Memref sig .tc .vmem S512x1 .f32 := Memref.whole cc2_scratch0

/-- The row minima of the tile at point `t`: the body's payload at the point's four input blocks (the normalised
    row tile, its squared norms, the normalised column tile, its squared norms). -/
def tile2 (c : Dev nD) (t : Fin cfg2.N) : Vec F S512x1 .f32 :=
  k2_pay3 (grid2.coords t) (iblk2 V c 0 t) (iblk2 V c 2 t) (iblk2 V c 1 t) (iblk2 V c 3 t)

/-- THE RUNNING MINIMUM. What the scratch column holds after the body at position `n`: at the first column tile of a
    row tile (`n % 32 = 0`) the tile's minima against +∞, afterwards against what the point before left. -/
def acc2 (c : Dev nD) : (n : ℕ) → n < cfg2.N → Vec F S512x1 .f32
  | 0, hn => k2_pay1 (tile2 V c ⟨0, hn⟩) (k2_pay2 (F := F))
  | n + 1, hn =>
    if (n + 1) % 32 = 0 then k2_pay1 (tile2 V c ⟨n + 1, hn⟩) (k2_pay2 (F := F))
    else k2_pay1 (tile2 V c ⟨n + 1, hn⟩) (acc2 c n (Nat.lt_of_succ_lt hn))

theorem acc2_first (c : Dev nD) (t : Fin cfg2.N) (h : t.val % 32 = 0) :
    acc2 V c t.val t.isLt = k2_pay1 (tile2 V c t) (k2_pay2 (F := F)) := by
  obtain ⟨n, hn⟩ := t
  cases n with
  | zero => rfl
  | succ n => exact if_pos h

theorem acc2_next (c : Dev nD) (t : Fin cfg2.N) (h : ¬ t.val % 32 = 0) :
    acc2 V c t.val t.isLt = k2_pay1 (tile2 V c t) (acc2 V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: before the first point the scoped rest and the generator register as the
    launch hands them over; afterwards the same with the scratch column at the running minimum the point before left. -/
def PhiS2 (c : Dev nD) : (n : ℕ) → n ≤ cfg2.N → sProp 𝕄
  | 0, _ => Pipeline.ΦA spec2 c
  | n + 1, hn => iprop(owns (c : Thread nD τ) scM2 fullShare (acc2 V c n hn) ∗ ((∃ d, owns (c : Thread nD τ) scM2 fullShare d) -∗ Pipeline.ΦA spec2 c))

/-- The proof data of the pipeline on core `c`: the arrays as the region finds them; after the body at point `t` each
    input's buffer at its block and the output's at the running minimum (consulted only at the last column tile of a row
    tile, where the block is written back; elsewhere the window is idle); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = acc2 V c t.val t.isLt := by dsimp only [dat2]

/-! ## The two branch conditions over the grid's points, and where the output window is idle -/

/-- The first condition holds at the first column tile of each row tile; -/
theorem hcond2_0 : ∀ t : Fin cfg2.N, cond2_0 (grid2.coords t) ↔ t.val % 32 = 0 :=
  (by decide +kernel : ∀ t : Fin grid2.N, cond2_0 (grid2.coords t) ↔ t.val % 32 = 0)

/-- the second at the last. -/
theorem hcond2_1 : ∀ t : Fin cfg2.N, k2_cond2 (grid2.coords t) = 1#1 ↔ t.val % 32 = 31 :=
  (by decide +kernel : ∀ t : Fin grid2.N, k2_cond2 (grid2.coords t) = 1#1 ↔ t.val % 32 = 31)

/-- Away from the last column tile the output window is idle, -/
theorem idleAt2_4 : ∀ t : Fin cfg2.N, ¬ k2_cond2 (grid2.coords t) = 1#1 → cfg2.idle 4 (grid2.coords t) = true := by decide +kernel

/-- and its block is not written back; -/
theorem noFlush2_4 (t : Fin cfg2.N) (h : ¬ k2_cond2 (grid2.coords t) = 1#1) : (cfg2.win 4).flush t = false :=
  Bool.eq_false_iff.mpr fun hf => h ((hcond2_1 t).mpr ((flush2_4 t).mp hf))

/-- at the last column tile it is live. -/
theorem liveAt2_4 : ∀ t : Fin cfg2.N, k2_cond2 (grid2.coords t) = 1#1 → cfg2.idle 4 (grid2.coords t) = false := by decide +kernel

/-! ## What the body finds in the input windows -/

/-- Each input window's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The invariant: the scratch column lent out of the scoped rest -/

/-- What the launch hands over holds the scratch column at some contents, and takes it back at any. -/
theorem PhiA2_open (c : Dev nD) :
    (Pipeline.ΦA spec2 c : sProp 𝕄)
      ⊢ iprop((∃ d, owns (c : Thread nD τ) scM2 fullShare d) ∗ ((∃ d, owns (c : Thread nD τ) scM2 fullShare d) -∗ Pipeline.ΦA spec2 c)) := by
  unfold Pipeline.ΦA; rw [scopedRest2_eq]; simp only [scM2, owns_whole]
  iintro ⟨⟨H1, H2, H3, H4, H5, H6, H7, H8, H9, H10, H11, H12, Hs⟩, Hg⟩
  isplitl [Hs]; · iexact Hs
  iintro Hs
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact Hs
  iexact Hg

/-- After point `n` the scratch column holds that point's running minimum. -/
theorem PhiS2_succ (c : Dev nD) (n : ℕ) (hn : n < cfg2.N) :
    PhiS2 V c (n + 1) hn = iprop(owns (c : Thread nD τ) scM2 fullShare (acc2 V c n hn) ∗ ((∃ d, owns (c : Thread nD τ) scM2 fullShare d) -∗ Pipeline.ΦA spec2 c)) := rfl

/-- Before a point that is not the first it holds what the point before left. -/
theorem PhiS2_pos (c : Dev nD) (n : ℕ) (h : n ≤ cfg2.N) (hz : n ≠ 0) :
    PhiS2 V c n h = iprop(owns (c : Thread nD τ) scM2 fullShare (acc2 V c (n - 1) (by omega)) ∗ ((∃ d, owns (c : Thread nD τ) scM2 fullShare d) -∗ Pipeline.ΦA spec2 c)) := by
  cases n with
  | zero => exact absurd rfl hz
  | succ n => rfl

/-- Before any point it holds something, and the rest takes it back at anything. -/
theorem PhiS2_any (c : Dev nD) (n : ℕ) (h : n ≤ cfg2.N) :
    PhiS2 V c n h ⊢ iprop((∃ d, owns (c : Thread nD τ) scM2 fullShare d) ∗ ((∃ d, owns (c : Thread nD τ) scM2 fullShare d) -∗ Pipeline.ΦA spec2 c)) := by
  cases n with
  | zero => exact PhiA2_open c
  | succ n =>
    rw [PhiS2_succ]
    iintro ⟨Hs, Hw⟩
    isplitl [Hs]; · iexists _; iexact Hs
    iexact Hw

/-- Before any point the invariant gives back what the launch handed over: the column's named contents are forgotten. -/
theorem PhiS2_out (c : Dev nD) (n : ℕ) (h : n ≤ cfg2.N) : PhiS2 V c n h ⊢ Pipeline.ΦA spec2 c := by
  cases n with
  | zero => exact .rfl
  | succ n =>
    rw [PhiS2_succ]
    iintro ⟨Hs, Hw⟩
    iapply Hw
    iexists _; iexact Hs

theorem PhiS2_castSucc (c : Dev nD) (t : Fin cfg2.N) :
    (dat2 V c).Φ t.castSucc = PhiS2 V c t.val (Nat.le_of_lt t.isLt) := by
  dsimp only [dat2]; simp only [Fin.coe_castSucc]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns: the output window as it was found where it is idle, at the running minimum where it is not. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 2000000 in
/-- The body at any point, by the point's place in its row tile: at the first column tile the scratch column is reset
    and lowered by the tile's minima, afterwards lowered from what the point before left, and at the last column tile
    copied to the output block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    show (dat2 V c).Φ t.succ = PhiS2 V c (t.val + 1) t.isLt from rfl, PhiS2_succ, PhiS2_castSucc]
  rw [show (dat2 V c).leavesExact 0 t = owns (c : Thread nD τ) (st2_0 t) fullShare ((dat2 V c).after 0 t) from rfl, after2_0,
    show (dat2 V c).leavesExact 1 t = owns (c : Thread nD τ) (st2_1 t) fullShare ((dat2 V c).after 1 t) from rfl, after2_1,
    show (dat2 V c).leavesExact 2 t = owns (c : Thread nD τ) (st2_2 t) fullShare ((dat2 V c).after 2 t) from rfl, after2_2,
    show (dat2 V c).leavesExact 3 t = owns (c : Thread nD τ) (st2_3 t) fullShare ((dat2 V c).after 3 t) from rfl, after2_3]
  have hN : t.val < 512 := lt_of_lt_of_eq t.isLt (show cfg2.N = 512 from N_2)
  by_cases h0 : t.val % 32 = 0
  · have h1 : ¬ t.val % 32 = 31 := by omega
    have hc0 : cond2_0 (grid2.coords t) := (hcond2_0 t).mpr h0
    have hc1 : ¬ k2_cond2 (grid2.coords t) = 1#1 := fun h => h1 ((hcond2_1 t).mp h)
    rw [Dat.leavesExact_idle (dat2 V c) 4 t (idleAt2_4 t hc1) (noFlush2_4 t hc1), acc2_first V c t h0]
    unfold tile2
    refine (sep_mono_left (PhiS2_any V c _ _)).trans ?_
    iintro ⟨⟨Hs, Hw⟩, Ho, ⟨%d0, H0⟩, ⟨%d1, H1⟩, ⟨%d2, H2⟩, ⟨%d3, H3⟩, ⟨%d4, H4⟩⟩
    iapply (sound_kernel2_A c Set.univ _ _ _ _ _ _ _ _ _ _ _ _ _ hc0 hc1 (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexact H4
    isplitl [Hs]; · iexact Hs
    iintro ⟨H0, H1, H2, H3, H4, Hs⟩
    isplitl [Hs Hw]
    · isplitl [Hs]; · iexact Hs
      iexact Hw
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    have hc0 : ¬ cond2_0 (grid2.coords t) := fun h => h0 ((hcond2_0 t).mp h)
    rw [PhiS2_pos V c _ _ hz, acc2_next V c t h0]
    unfold tile2
    by_cases h1 : t.val % 32 = 31
    · have hc1 : k2_cond2 (grid2.coords t) = 1#1 := (hcond2_1 t).mpr h1
      rw [show (dat2 V c).leavesExact 4 t = owns (c : Thread nD τ) (st2_4 t) fullShare ((dat2 V c).after 4 t) from by
        unfold Dat.leavesExact; rw [liveAt2_4 t hc1], after2_4, acc2_next V c t h0]
      unfold tile2
      iintro ⟨⟨Hs, Hw⟩, Ho, ⟨%d0, H0⟩, ⟨%d1, H1⟩, ⟨%d2, H2⟩, ⟨%d3, H3⟩, ⟨%d4, H4⟩⟩
      iapply (sound_kernel2_C c Set.univ _ _ _ _ _ _ _ _ _ _ _ _ _ hc0 hc1 (iblk2 V c 0 t) (iblk2 V c 1 t) (iblk2 V c 2 t) (iblk2 V c 3 t) _ _)
      isplitl [H0]; · iexact H0
      isplitl [H1]; · iexact H1
      isplitl [H2]; · iexact H2
      isplitl [H3]; · iexact H3
      isplitl [H4]; · iexists _; iexact H4
      isplitl [Hs]; · iexact Hs
      iintro ⟨H0, H1, H2, H3, H4, Hs⟩
      isplitl [Hs Hw]
      · isplitl [Hs]; · iexact Hs
        iexact Hw
      isplitl [Ho]; · iexact Ho
      isplitl [H0]; · iexact H0
      isplitl [H1]; · iexact H1
      isplitl [H2]; · iexact H2
      isplitl [H3]; · iexact H3
      iexact H4
    · have hc1 : ¬ k2_cond2 (grid2.coords t) = 1#1 := fun h => h1 ((hcond2_1 t).mp h)
      rw [Dat.leavesExact_idle (dat2 V c) 4 t (idleAt2_4 t hc1) (noFlush2_4 t hc1)]
      iintro ⟨⟨Hs, Hw⟩, Ho, ⟨%d0, H0⟩, ⟨%d1, H1⟩, ⟨%d2, H2⟩, ⟨%d3, H3⟩, ⟨%d4, H4⟩⟩
      iapply (sound_kernel2_B c Set.univ _ _ _ _ _ _ _ _ _ _ _ _ _ hc0 hc1 (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, H4, Hs⟩
      isplitl [Hs Hw]
      · isplitl [Hs]; · iexact Hs
        iexact Hw
      isplitl [Ho]; · iexact Ho
      isplitl [H0]; · iexact H0
      isplitl [H1]; · iexact H1
      isplitl [H2]; · iexact H2
      isplitl [H3]; · iexact H3
      iexists _; iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl]
  exact .rfl

/-- After the last point the invariant gives it back: the scratch column's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl]
  exact PhiS2_out V c _ _

end Cert.Kernel.Hand

end
-- ==== Proof.K.Run.lean ====
/- The run of @main: its five items in order — the two row-normalising regions, the reshape of the second column of
   squared norms into a row, the nearest-row region, the closing host operations — with the contents of every buffer
   at each boundary between items written as a fold from the launch memory: a host stretch applies its operations, a
   region leaves its input arrays as entered and each output array at what its write-backs leave. Every weakly fair
   execution terminates, and the final memory holds every unscoped buffer at the last fold. -/
import proofs.«110562_j74887049773256_1_alg».proof.Proof.K.R0
import proofs.«110562_j74887049773256_1_alg».proof.Proof.K.R1
import proofs.«110562_j74887049773256_1_alg».proof.Proof.K.R2
import proofs.«110562_j74887049773256_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the reshape (region 2's entry). -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b

/-- At region 2's exit. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the closing host operations: the final contents. -/
abbrev W5 : Dev nD → Valuation τ sig (Elt F) := fun c => StableHlo.after hostOps3 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := StableHlo.after_of_writes_sub hostOps2 _ hostOps2_writes (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := StableHlo.after_of_writes_sub hostOps2 _ hostOps2_writes (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as items -/

set_option backward.isDefEq.respectTransparency.types false in
/-- Region 0: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered at `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered at `W3`, left at `W4`; its invariant carries the running minimum in the scratch column. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec2 c).trans (show Pipeline.ΦA spec2 c ⊢ (pdats m ρ 2 c).Φ 0 from hin2 (V3 m ρ) c)
    unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V3 m ρ) c).trans (?_ : Pipeline.ΦA spec2 c ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: every execution ends with the two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run_all m ρ)

end Cert.Kernel.Hand

end
-- ==== Proof.KI.R0.lean ====
/- Region 0 of @main (the row-normalising call on the first argument), at any float instance and at a parameter
   `V`, the TensorCore's buffer contents when the region is entered: each window's block at a grid point, what the body
   leaves in the two output blocks as functions of the input block (the normalised rows, and the row sums of their
   squares), the body's triple, the proof data of the pipeline and the body obligation at every point. -/
import proofs.«110562_j74887049773256_1_alg».proof.Proof.Gen.KernelIdeal.Launch
import proofs.«110562_j74887049773256_1_alg».proof.Proof.Gen.KernelIdeal.Skeleton
import proofs.«110562_j74887049773256_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point (it is fetched at every point), for any
    proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 × 1024 block and the whole 1024 × 1 column, as the body's loads and stores address them. -/
abbrev rM0 : Rect S1024x1024 := Rect.unit (s := S1024x1024) ![0, 0] S1024x1024.size inb_S1024x1024_S1024x1024_0_0
abbrev rC0 : Rect S1024x1 := Rect.unit (s := S1024x1) ![0, 0] S1024x1.size inb_S1024x1_S1024x1_0_0

/-- The normalised block the body stores (each row divided by the larger of its norm and the floor), from the input block. -/
def out0_1 (x0 : Vec F S1024x1024 .f32) : Vec F S1024x1024 .bf16 :=
  View.canon [⟨rM0, k0_pay2 (View.ld x0 rM0)⟩]

/-- The column of row sums of squares of the normalised block, from the input block. -/
def out0_2 (x0 : Vec F S1024x1024 .f32) : Vec F S1024x1 .f32 :=
  View.canon [⟨rC0, k0_pay3 (View.ld x0 rM0)⟩]

theorem cover0_1 (p0 : Vec F S1024x1024 .bf16) (y : S1024x1024.Idx) :
    ∃ pc ∈ ([⟨rM0, p0⟩] : List (View.Piece (Elt F) S1024x1024 .bf16)), y ∈ pc.1.set :=
  View.cover_of_tiled [⟨rM0, p0⟩] S1024x1024.size (by rfl) y

theorem cover0_2 (p0 : Vec F S1024x1 .f32) (y : S1024x1.Idx) :
    ∃ pc ∈ ([⟨rC0, p0⟩] : List (View.Piece (Elt F) S1024x1 .f32)), y ∈ pc.1.set :=
  View.cover_of_tiled [⟨rC0, p0⟩] S1024x1.size (by rfl) y

set_option maxHeartbeats 1000000 in
/-- The body on whole staging memrefs, the input's at contents `x0` and the outputs' at anything, runs to the
    continuation holding the input's as it was and each output's at its function of `x0`. -/
theorem sound_kernel0 (c : Dev nD) (E : Set ℕ) (i : grid0.Coords) (arg1 : Memref sig .tc .vmem S1024x1024 .f32) (harg1 : arg1.IsWhole) (arg2 : Memref sig .tc .vmem S1024x1024 .bf16) (harg2 : arg2.IsWhole) (arg3 : Memref sig .tc .vmem S1024x1 .f32) (harg3 : arg3.IsWhole)
    (x0 : Vec F S1024x1024 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The proof data of the pipeline on core `c`: the arrays as the region finds them; after the body at point `t` the
    input's buffer at its block and each output's at its function of that block; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/- Region 1 of @main (the row-normalising call on the second argument), at any float instance and at a parameter
   `V`, the TensorCore's buffer contents when the region is entered: each window's block at a grid point, what the body
   leaves in the two output blocks as functions of the input block (the normalised rows, and the row sums of their
   squares), the body's triple, the proof data of the pipeline and the body obligation at every point. -/
import proofs.«110562_j74887049773256_1_alg».proof.Proof.Gen.KernelIdeal.Launch
import proofs.«110562_j74887049773256_1_alg».proof.Proof.Gen.KernelIdeal.Skeleton
import proofs.«110562_j74887049773256_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point (it is fetched at every point), for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 1024 × 1024 block and the whole 1024 × 1 column, as the body's loads and stores address them. -/
abbrev rM1 : Rect S1024x1024 := Rect.unit (s := S1024x1024) ![0, 0] S1024x1024.size inb_S1024x1024_S1024x1024_0_0
abbrev rC1 : Rect S1024x1 := Rect.unit (s := S1024x1) ![0, 0] S1024x1.size inb_S1024x1_S1024x1_0_0

/-- The normalised block the body stores (each row divided by the larger of its norm and the floor), from the input block. -/
def out1_1 (x0 : Vec F S1024x1024 .f32) : Vec F S1024x1024 .bf16 :=
  View.canon [⟨rM1, k1_pay2 (View.ld x0 rM1)⟩]

/-- The column of row sums of squares of the normalised block, from the input block. -/
def out1_2 (x0 : Vec F S1024x1024 .f32) : Vec F S1024x1 .f32 :=
  View.canon [⟨rC1, k1_pay3 (View.ld x0 rM1)⟩]

theorem cover1_1 (p0 : Vec F S1024x1024 .bf16) (y : S1024x1024.Idx) :
    ∃ pc ∈ ([⟨rM1, p0⟩] : List (View.Piece (Elt F) S1024x1024 .bf16)), y ∈ pc.1.set :=
  View.cover_of_tiled [⟨rM1, p0⟩] S1024x1024.size (by rfl) y

theorem cover1_2 (p0 : Vec F S1024x1 .f32) (y : S1024x1.Idx) :
    ∃ pc ∈ ([⟨rC1, p0⟩] : List (View.Piece (Elt F) S1024x1 .f32)), y ∈ pc.1.set :=
  View.cover_of_tiled [⟨rC1, p0⟩] S1024x1.size (by rfl) y

set_option maxHeartbeats 1000000 in
/-- The body on whole staging memrefs, the input's at contents `x0` and the outputs' at anything, runs to the
    continuation holding the input's as it was and each output's at its function of `x0`. -/
theorem sound_kernel1 (c : Dev nD) (E : Set ℕ) (i : grid1.Coords) (arg1 : Memref sig .tc .vmem S1024x1024 .f32) (harg1 : arg1.IsWhole) (arg2 : Memref sig .tc .vmem S1024x1024 .bf16) (harg2 : arg2.IsWhole) (arg3 : Memref sig .tc .vmem S1024x1 .f32) (harg3 : arg3.IsWhole)
    (x0 : Vec F S1024x1024 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0) ∗ owns (c : Thread nD τ) arg3 fullShare (out1_2 x0)) -∗ K ⟨⟩))
      ⊢ wp frame (wpE (defs₀ (F := F)) Variants.none c none) E (cc1__normalize_kernel i arg1 harg1 arg2 harg2 arg3 harg3) K := by
  simp only [cc1__normalize_kernel_eq_skeleton]; unfold cc1__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

/-- The proof data of the pipeline on core `c`: the arrays as the region finds them; after the body at point `t` the
    input's buffer at its block and each output's at its function of that block; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/- Region 2 of @main (the tiled nearest-row search), at any float instance and at a parameter `V`, the TensorCore's
   buffer contents when the region is entered. The grid is 16 row tiles by 32 column tiles, walked row tile by row tile;
   a scratch column carries the running minimum of a row tile through its 32 column tiles: reset to +∞ at the first
   column tile, lowered by each tile's row minima, and copied to the output block at the last column tile. -/
import proofs.«110562_j74887049773256_1_alg».proof.Proof.Gen.KernelIdeal.Launch
import proofs.«110562_j74887049773256_1_alg».proof.Proof.Gen.KernelIdeal.Skeleton
import proofs.«110562_j74887049773256_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel body on whole staging memrefs, case by case -/

/-- The first branch's condition (the column-tile coordinate is 0), as the kernel's scalar chain computes it. -/
abbrev cond2_0 (i : grid2.Coords) : Prop :=
  (Scalar.cmpi .ne (Scalar.extui (Scalar.cmpi .eq (BitVec.ofNat 32 (i 1).val) 0#32)) 0#32) = 1#1

/-- The zero offsets of a rank-2 rectangle, however spelt. -/
theorem z2 : (![0, 0] : Fin 2 → Nat) = fun _ => 0 := by funext a; fin_cases a <;> rfl

/-- The tile's row minima from what the four whole-buffer loads read: each load reads its buffer's contents. -/
theorem pay3_loads (i : grid2.Coords) {v0 : View sig .tc .vmem S512x1024 .bf16} {v1 : View sig .tc .vmem S512x1 .f32}
    {v2 : View sig .tc .vmem S1024x1024 .bf16} {v3 : View sig .tc .vmem S1x1024 .f32}
    (f0 : v0.ty.Contents (Elt F)) (f1 : v1.ty.Contents (Elt F)) (f2 : v2.ty.Contents (Elt F)) (f3 : v3.ty.Contents (Elt F)) :
    k2_pay3 i (View.readAt (Elt F) v0 (Rect.unit ![0, 0] S512x1024.size inb_S512x1024_S512x1024_0_0).toLoadRect f0)
        (View.readAt (Elt F) v2 (Rect.unit ![0, 0] S1024x1024.size inb_S1024x1024_S1024x1024_0_0).toLoadRect f2)
        (View.readAt (Elt F) v1 (Rect.unit ![0, 0] S512x1.size inb_S512x1_S512x1_0_0).toLoadRect f1)
        (View.readAt (Elt F) v3 (Rect.unit ![0, 0] S1x1024.size inb_S1x1024_S1x1024_0_0).toLoadRect f3)
      = k2_pay3 i (View.read (Elt F) v0 f0) (View.read (Elt F) v2 f2) (View.read (Elt F) v1 f1) (View.read (Elt F) v3 f3) := by
  have e0 : View.readAt (Elt F) v0 (Rect.unit ![0, 0] S512x1024.size inb_S512x1024_S512x1024_0_0).toLoadRect f0 = View.read (Elt F) v0 f0 :=
    View.ld_unit_zero (S := S512x1024) z2 _ _
  have e1 : View.readAt (Elt F) v1 (Rect.unit ![0, 0] S512x1.size inb_S512x1_S512x1_0_0).toLoadRect f1 = View.read (Elt F) v1 f1 :=
    View.ld_unit_zero (S := S512x1) z2 _ _
  have e2 : View.readAt (Elt F) v2 (Rect.unit ![0, 0] S1024x1024.size inb_S1024x1024_S1024x1024_0_0).toLoadRect f2 = View.read (Elt F) v2 f2 :=
    View.ld_unit_zero (S := S1024x1024) z2 _ _
  have e3 : View.readAt (Elt F) v3 (Rect.unit ![0, 0] S1x1024.size inb_S1x1024_S1x1024_0_0).toLoadRect f3 = View.read (Elt F) v3 f3 :=
    View.ld_unit_zero (S := S1x1024) z2 _ _
  rw [e0, e1, e2, e3]

/-- One whole-buffer store, last, is what the buffer then reads. -/
theorem read_last_store {v : View sig .tc .vmem S512x1 .f32} (f : v.ty.Contents (Elt F)) (w : Vec F S512x1 .f32)
    (L : List (View.Piece (Elt F) S512x1 .f32)) :
    View.read (Elt F) v (v.writes (Elt F) f ((⟨Rect.unit ![0, 0] S512x1.size inb_S512x1_S512x1_0_0, w⟩ : View.Piece (Elt F) S512x1 .f32) :: L)) = w := by
  have hc : ∀ y : S512x1.Idx, ∃ p ∈ ((⟨Rect.unit ![0, 0] S512x1.size inb_S512x1_S512x1_0_0, w⟩ : View.Piece (Elt F) S512x1 .f32) :: L), y ∈ p.1.set :=
    fun y => ⟨(⟨Rect.unit ![0, 0] S512x1.size inb_S512x1_S512x1_0_0, w⟩ : View.Piece (Elt F) S512x1 .f32), List.Mem.head _,
      View.mem_set_unit_zero (S := S512x1) z2 inb_S512x1_S512x1_0_0 y⟩
  rw [View.read_writes_eq_canon v f _ hc]
  exact View.canon_cons_unit_zero (S := S512x1) z2 inb_S512x1_S512x1_0_0 w L

set_option maxHeartbeats 1000000 in
/-- The body at the FIRST column tile of a row tile (never a last one): on whole staging memrefs at the four input blocks,
    the output block at anything it hands back untouched, the scratch column at anything, it runs to the continuation
    holding the inputs as they were and the scratch column at the tile's row minima against +∞. -/
theorem sound_kernel2_A (c : Dev nD) (E : Set ℕ) (i : grid2.Coords)
    (arg2 : Memref sig .tc .vmem S512x1024 .bf16) (harg2 : arg2.IsWhole) (arg3 : Memref sig .tc .vmem S512x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S512x1 .f32) (harg6 : arg6.IsWhole) (arg7 : Memref sig .tc .vmem S512x1 .f32) (harg7 : arg7.IsWhole)
    (hc0 : cond2_0 i) (hc1 : ¬ k2_cond2 i = 1#1)
    (x0 : Vec F S512x1024 .bf16) (x1 : Vec F S512x1 .f32) (x2 : Vec F S1024x1024 .bf16) (x3 : Vec F S1x1024 .f32) (xo : Vec F S512x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k2_pay1 (k2_pay3 i x0 x2 x1 x3) (k2_pay2 (F := F)))) -∗ K ⟨⟩))
      ⊢ wp frame (wpE (defs₀ (F := F)) Variants.none c none) E (cc2__nn_min_kernel i arg2 harg2 arg3 harg3 arg4 harg4 arg5 harg5 arg6 harg6 arg7 harg7) K := by
  simp only [cc2__nn_min_kernel_eq_skeleton]; unfold cc2__nn_min_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%fo, %hfo, Ho⟩, ⟨%ds, %fs, -, Hs⟩, Hk⟩
  subst hf0; subst hf1; subst hf2; subst hf3; subst hfo
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Ho]
  · iexists fo; isplitr; · ipureintro; rfl
    iexact Ho
  iexists _; isplitr
  swap; · iexact Hs
  ipureintro
  sl_unfold_run_names
  refine (read_last_store _ _ _).trans ?_
  dsimp only
  rw [pay3_loads, View.readCov_unit_zero (S := S512x1) _ z2]

set_option maxHeartbeats 1000000 in
/-- The body at a column tile neither first nor last: the scratch column at `s` is lowered by the tile's row minima; the
    output block is handed back untouched. -/
theorem sound_kernel2_B (c : Dev nD) (E : Set ℕ) (i : grid2.Coords)
    (arg2 : Memref sig .tc .vmem S512x1024 .bf16) (harg2 : arg2.IsWhole) (arg3 : Memref sig .tc .vmem S512x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S512x1 .f32) (harg6 : arg6.IsWhole) (arg7 : Memref sig .tc .vmem S512x1 .f32) (harg7 : arg7.IsWhole)
    (hc0 : ¬ cond2_0 i) (hc1 : ¬ k2_cond2 i = 1#1)
    (x0 : Vec F S512x1024 .bf16) (x1 : Vec F S512x1 .f32) (x2 : Vec F S1024x1024 .bf16) (x3 : Vec F S1x1024 .f32) (xo : Vec F S512x1 .f32) (s : Vec F S512x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xo ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare xo
            ∗ owns (c : Thread nD τ) arg7 fullShare (k2_pay1 (k2_pay3 i x0 x2 x1 x3) s)) -∗ K ⟨⟩))
      ⊢ wp frame (wpE (defs₀ (F := F)) Variants.none c none) E (cc2__nn_min_kernel i arg2 harg2 arg3 harg3 arg4 harg4 arg5 harg5 arg6 harg6 arg7 harg7) K := by
  simp only [cc2__nn_min_kernel_eq_skeleton]; unfold cc2__nn_min_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%fo, %hfo, Ho⟩, ⟨%fs, %hfs, Hs⟩, Hk⟩
  subst hf0; subst hf1; subst hf2; subst hf3; subst hfo; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Ho]
  · iexists fo; isplitr; · ipureintro; rfl
    iexact Ho
  iexists _; isplitr
  swap; · iexact Hs
  ipureintro
  sl_unfold_run_names
  refine (read_last_store _ _ _).trans ?_
  dsimp only
  rw [pay3_loads]
  exact congrArg (k2_pay1 _) (View.ld_unit_zero (S := S512x1) z2 inb_S512x1_S512x1_0_0 _)

set_option maxHeartbeats 1000000 in
/-- The body at the LAST column tile (never a first one): the scratch column at `s` is lowered by the tile's row minima,
    and the output block, at anything, is left at the same column. -/
theorem sound_kernel2_C (c : Dev nD) (E : Set ℕ) (i : grid2.Coords)
    (arg2 : Memref sig .tc .vmem S512x1024 .bf16) (harg2 : arg2.IsWhole) (arg3 : Memref sig .tc .vmem S512x1 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S512x1 .f32) (harg6 : arg6.IsWhole) (arg7 : Memref sig .tc .vmem S512x1 .f32) (harg7 : arg7.IsWhole)
    (hc0 : ¬ cond2_0 i) (hc1 : k2_cond2 i = 1#1)
    (x0 : Vec F S512x1024 .bf16) (x1 : Vec F S512x1 .f32) (x2 : Vec F S1024x1024 .bf16) (x3 : Vec F S1x1024 .f32) (s : Vec F S512x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k2_pay1 (k2_pay3 i x0 x2 x1 x3) s)
            ∗ owns (c : Thread nD τ) arg7 fullShare (k2_pay1 (k2_pay3 i x0 x2 x1 x3) s)) -∗ K ⟨⟩))
      ⊢ wp frame (wpE (defs₀ (F := F)) Variants.none c none) E (cc2__nn_min_kernel i arg2 harg2 arg3 harg3 arg4 harg4 arg5 harg5 arg6 harg6 arg7 harg7) K := by
  simp only [cc2__nn_min_kernel_eq_skeleton]; unfold cc2__nn_min_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%do_, %fo, -, Ho⟩, ⟨%fs, %hfs, Hs⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [Ho]
  · iexists _; isplitr
    swap; · iexact Ho
    ipureintro
    sl_unfold_run_names
    refine (read_last_store _ _ _).trans ?_
    refine (View.readCov_unit_zero (S := S512x1) _ z2 inb_S512x1_S512x1_0_0 _).trans ?_
    dsimp only
    rw [pay3_loads]
    exact congrArg (k2_pay1 _) (View.ld_unit_zero (S := S512x1) z2 inb_S512x1_S512x1_0_0 _)
  iexists _; isplitr
  swap; · iexact Hs
  ipureintro
  sl_unfold_run_names
  refine (read_last_store _ _ _).trans ?_
  dsimp only
  rw [pay3_loads]
  exact congrArg (k2_pay1 _) (View.ld_unit_zero (S := S512x1) z2 inb_S512x1_S512x1_0_0 _)

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The scratch column the kernel carries between points. -/
abbrev scM2 : Memref sig .tc .vmem S512x1 .f32 := Memref.whole cc2_scratch0

/-- The row minima of the tile at point `t`: the body's payload at the point's four input blocks (the normalised
    row tile, its squared norms, the normalised column tile, its squared norms). -/
def tile2 (c : Dev nD) (t : Fin cfg2.N) : Vec F S512x1 .f32 :=
  k2_pay3 (grid2.coords t) (iblk2 V c 0 t) (iblk2 V c 2 t) (iblk2 V c 1 t) (iblk2 V c 3 t)

/-- THE RUNNING MINIMUM. What the scratch column holds after the body at position `n`: at the first column tile of a
    row tile (`n % 32 = 0`) the tile's minima against +∞, afterwards against what the point before left. -/
def acc2 (c : Dev nD) : (n : ℕ) → n < cfg2.N → Vec F S512x1 .f32
  | 0, hn => k2_pay1 (tile2 V c ⟨0, hn⟩) (k2_pay2 (F := F))
  | n + 1, hn =>
    if (n + 1) % 32 = 0 then k2_pay1 (tile2 V c ⟨n + 1, hn⟩) (k2_pay2 (F := F))
    else k2_pay1 (tile2 V c ⟨n + 1, hn⟩) (acc2 c n (Nat.lt_of_succ_lt hn))

theorem acc2_first (c : Dev nD) (t : Fin cfg2.N) (h : t.val % 32 = 0) :
    acc2 V c t.val t.isLt = k2_pay1 (tile2 V c t) (k2_pay2 (F := F)) := by
  obtain ⟨n, hn⟩ := t
  cases n with
  | zero => rfl
  | succ n => exact if_pos h

theorem acc2_next (c : Dev nD) (t : Fin cfg2.N) (h : ¬ t.val % 32 = 0) :
    acc2 V c t.val t.isLt = k2_pay1 (tile2 V c t) (acc2 V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: before the first point the scoped rest and the generator register as the
    launch hands them over; afterwards the same with the scratch column at the running minimum the point before left. -/
def PhiS2 (c : Dev nD) : (n : ℕ) → n ≤ cfg2.N → sProp 𝕄
  | 0, _ => Pipeline.ΦA spec2 c
  | n + 1, hn => iprop(owns (c : Thread nD τ) scM2 fullShare (acc2 V c n hn) ∗ ((∃ d, owns (c : Thread nD τ) scM2 fullShare d) -∗ Pipeline.ΦA spec2 c))

/-- The proof data of the pipeline on core `c`: the arrays as the region finds them; after the body at point `t` each
    input's buffer at its block and the output's at the running minimum (consulted only at the last column tile of a row
    tile, where the block is written back; elsewhere the window is idle); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = acc2 V c t.val t.isLt := by dsimp only [dat2]

/-! ## The two branch conditions over the grid's points, and where the output window is idle -/

/-- The first condition holds at the first column tile of each row tile; -/
theorem hcond2_0 : ∀ t : Fin cfg2.N, cond2_0 (grid2.coords t) ↔ t.val % 32 = 0 :=
  (by decide +kernel : ∀ t : Fin grid2.N, cond2_0 (grid2.coords t) ↔ t.val % 32 = 0)

/-- the second at the last. -/
theorem hcond2_1 : ∀ t : Fin cfg2.N, k2_cond2 (grid2.coords t) = 1#1 ↔ t.val % 32 = 31 :=
  (by decide +kernel : ∀ t : Fin grid2.N, k2_cond2 (grid2.coords t) = 1#1 ↔ t.val % 32 = 31)

/-- Away from the last column tile the output window is idle, -/
theorem idleAt2_4 : ∀ t : Fin cfg2.N, ¬ k2_cond2 (grid2.coords t) = 1#1 → cfg2.idle 4 (grid2.coords t) = true := by decide +kernel

/-- and its block is not written back; -/
theorem noFlush2_4 (t : Fin cfg2.N) (h : ¬ k2_cond2 (grid2.coords t) = 1#1) : (cfg2.win 4).flush t = false :=
  Bool.eq_false_iff.mpr fun hf => h ((hcond2_1 t).mpr ((flush2_4 t).mp hf))

/-- at the last column tile it is live. -/
theorem liveAt2_4 : ∀ t : Fin cfg2.N, k2_cond2 (grid2.coords t) = 1#1 → cfg2.idle 4 (grid2.coords t) = false := by decide +kernel

/-! ## What the body finds in the input windows -/

/-- Each input window's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The invariant: the scratch column lent out of the scoped rest -/

/-- What the launch hands over holds the scratch column at some contents, and takes it back at any. -/
theorem PhiA2_open (c : Dev nD) :
    (Pipeline.ΦA spec2 c : sProp 𝕄)
      ⊢ iprop((∃ d, owns (c : Thread nD τ) scM2 fullShare d) ∗ ((∃ d, owns (c : Thread nD τ) scM2 fullShare d) -∗ Pipeline.ΦA spec2 c)) := by
  unfold Pipeline.ΦA; rw [scopedRest2_eq]; simp only [scM2, owns_whole]
  iintro ⟨⟨H1, H2, H3, H4, H5, H6, H7, H8, H9, H10, H11, H12, Hs⟩, Hg⟩
  isplitl [Hs]; · iexact Hs
  iintro Hs
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact Hs
  iexact Hg

/-- After point `n` the scratch column holds that point's running minimum. -/
theorem PhiS2_succ (c : Dev nD) (n : ℕ) (hn : n < cfg2.N) :
    PhiS2 V c (n + 1) hn = iprop(owns (c : Thread nD τ) scM2 fullShare (acc2 V c n hn) ∗ ((∃ d, owns (c : Thread nD τ) scM2 fullShare d) -∗ Pipeline.ΦA spec2 c)) := rfl

/-- Before a point that is not the first it holds what the point before left. -/
theorem PhiS2_pos (c : Dev nD) (n : ℕ) (h : n ≤ cfg2.N) (hz : n ≠ 0) :
    PhiS2 V c n h = iprop(owns (c : Thread nD τ) scM2 fullShare (acc2 V c (n - 1) (by omega)) ∗ ((∃ d, owns (c : Thread nD τ) scM2 fullShare d) -∗ Pipeline.ΦA spec2 c)) := by
  cases n with
  | zero => exact absurd rfl hz
  | succ n => rfl

/-- Before any point it holds something, and the rest takes it back at anything. -/
theorem PhiS2_any (c : Dev nD) (n : ℕ) (h : n ≤ cfg2.N) :
    PhiS2 V c n h ⊢ iprop((∃ d, owns (c : Thread nD τ) scM2 fullShare d) ∗ ((∃ d, owns (c : Thread nD τ) scM2 fullShare d) -∗ Pipeline.ΦA spec2 c)) := by
  cases n with
  | zero => exact PhiA2_open c
  | succ n =>
    rw [PhiS2_succ]
    iintro ⟨Hs, Hw⟩
    isplitl [Hs]; · iexists _; iexact Hs
    iexact Hw

/-- Before any point the invariant gives back what the launch handed over: the column's named contents are forgotten. -/
theorem PhiS2_out (c : Dev nD) (n : ℕ) (h : n ≤ cfg2.N) : PhiS2 V c n h ⊢ Pipeline.ΦA spec2 c := by
  cases n with
  | zero => exact .rfl
  | succ n =>
    rw [PhiS2_succ]
    iintro ⟨Hs, Hw⟩
    iapply Hw
    iexists _; iexact Hs

theorem PhiS2_castSucc (c : Dev nD) (t : Fin cfg2.N) :
    (dat2 V c).Φ t.castSucc = PhiS2 V c t.val (Nat.le_of_lt t.isLt) := by
  dsimp only [dat2]; simp only [Fin.coe_castSucc]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns: the output window as it was found where it is idle, at the running minimum where it is not. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 2000000 in
/-- The body at any point, by the point's place in its row tile: at the first column tile the scratch column is reset
    and lowered by the tile's minima, afterwards lowered from what the point before left, and at the last column tile
    copied to the output block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl,
    show (dat2 V c).Φ t.succ = PhiS2 V c (t.val + 1) t.isLt from rfl, PhiS2_succ, PhiS2_castSucc]
  rw [show (dat2 V c).leavesExact 0 t = owns (c : Thread nD τ) (st2_0 t) fullShare ((dat2 V c).after 0 t) from rfl, after2_0,
    show (dat2 V c).leavesExact 1 t = owns (c : Thread nD τ) (st2_1 t) fullShare ((dat2 V c).after 1 t) from rfl, after2_1,
    show (dat2 V c).leavesExact 2 t = owns (c : Thread nD τ) (st2_2 t) fullShare ((dat2 V c).after 2 t) from rfl, after2_2,
    show (dat2 V c).leavesExact 3 t = owns (c : Thread nD τ) (st2_3 t) fullShare ((dat2 V c).after 3 t) from rfl, after2_3]
  have hN : t.val < 512 := lt_of_lt_of_eq t.isLt (show cfg2.N = 512 from N_2)
  by_cases h0 : t.val % 32 = 0
  · have h1 : ¬ t.val % 32 = 31 := by omega
    have hc0 : cond2_0 (grid2.coords t) := (hcond2_0 t).mpr h0
    have hc1 : ¬ k2_cond2 (grid2.coords t) = 1#1 := fun h => h1 ((hcond2_1 t).mp h)
    rw [Dat.leavesExact_idle (dat2 V c) 4 t (idleAt2_4 t hc1) (noFlush2_4 t hc1), acc2_first V c t h0]
    unfold tile2
    refine (sep_mono_left (PhiS2_any V c _ _)).trans ?_
    iintro ⟨⟨Hs, Hw⟩, Ho, ⟨%d0, H0⟩, ⟨%d1, H1⟩, ⟨%d2, H2⟩, ⟨%d3, H3⟩, ⟨%d4, H4⟩⟩
    iapply (sound_kernel2_A c Set.univ _ _ _ _ _ _ _ _ _ _ _ _ _ hc0 hc1 (iblk2 V c 0 t) (iblk2 V c 1 t) (iblk2 V c 2 t) (iblk2 V c 3 t) _ _)
    isplitl [H0]; · iexact H0
    isplitl [H1]; · iexact H1
    isplitl [H2]; · iexact H2
    isplitl [H3]; · iexact H3
    isplitl [H4]; · iexact H4
    isplitl [Hs]; · iexact Hs
    iintro ⟨H0, H1, H2, H3, H4, Hs⟩
    isplitl [Hs Hw]
    · isplitl [Hs]; · iexact Hs
      iexact Hw
    isplitl [Ho]; · iexact Ho
    isplitl [H0]; · iexact H0
    isplitl [H1]; · iexact H1
    isplitl [H2]; · iexact H2
    isplitl [H3]; · iexact H3
    iexists _; iexact H4
  · have hz : t.val ≠ 0 := fun e => h0 (by rw [e])
    have hc0 : ¬ cond2_0 (grid2.coords t) := fun h => h0 ((hcond2_0 t).mp h)
    rw [PhiS2_pos V c _ _ hz, acc2_next V c t h0]
    unfold tile2
    by_cases h1 : t.val % 32 = 31
    · have hc1 : k2_cond2 (grid2.coords t) = 1#1 := (hcond2_1 t).mpr h1
      rw [show (dat2 V c).leavesExact 4 t = owns (c : Thread nD τ) (st2_4 t) fullShare ((dat2 V c).after 4 t) from by
        unfold Dat.leavesExact; rw [liveAt2_4 t hc1], after2_4, acc2_next V c t h0]
      unfold tile2
      iintro ⟨⟨Hs, Hw⟩, Ho, ⟨%d0, H0⟩, ⟨%d1, H1⟩, ⟨%d2, H2⟩, ⟨%d3, H3⟩, ⟨%d4, H4⟩⟩
      iapply (sound_kernel2_C c Set.univ _ _ _ _ _ _ _ _ _ _ _ _ _ hc0 hc1 (iblk2 V c 0 t) (iblk2 V c 1 t) (iblk2 V c 2 t) (iblk2 V c 3 t) _ _)
      isplitl [H0]; · iexact H0
      isplitl [H1]; · iexact H1
      isplitl [H2]; · iexact H2
      isplitl [H3]; · iexact H3
      isplitl [H4]; · iexists _; iexact H4
      isplitl [Hs]; · iexact Hs
      iintro ⟨H0, H1, H2, H3, H4, Hs⟩
      isplitl [Hs Hw]
      · isplitl [Hs]; · iexact Hs
        iexact Hw
      isplitl [Ho]; · iexact Ho
      isplitl [H0]; · iexact H0
      isplitl [H1]; · iexact H1
      isplitl [H2]; · iexact H2
      isplitl [H3]; · iexact H3
      iexact H4
    · have hc1 : ¬ k2_cond2 (grid2.coords t) = 1#1 := fun h => h1 ((hcond2_1 t).mp h)
      rw [Dat.leavesExact_idle (dat2 V c) 4 t (idleAt2_4 t hc1) (noFlush2_4 t hc1)]
      iintro ⟨⟨Hs, Hw⟩, Ho, ⟨%d0, H0⟩, ⟨%d1, H1⟩, ⟨%d2, H2⟩, ⟨%d3, H3⟩, ⟨%d4, H4⟩⟩
      iapply (sound_kernel2_B c Set.univ _ _ _ _ _ _ _ _ _ _ _ _ _ hc0 hc1 (iblk2 V c 0 t) (iblk2 V c 1 t) (iblk2 V c 2 t) (iblk2 V c 3 t) _ _ _)
      isplitl [H0]; · iexact H0
      isplitl [H1]; · iexact H1
      isplitl [H2]; · iexact H2
      isplitl [H3]; · iexact H3
      isplitl [H4]; · iexact H4
      isplitl [Hs]; · iexact Hs
      iintro ⟨H0, H1, H2, H3, H4, Hs⟩
      isplitl [Hs Hw]
      · isplitl [Hs]; · iexact Hs
        iexact Hw
      isplitl [Ho]; · iexact Ho
      isplitl [H0]; · iexact H0
      isplitl [H1]; · iexact H1
      isplitl [H2]; · iexact H2
      isplitl [H3]; · iexact H3
      iexists _; iexact H4

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl]
  exact .rfl

/-- After the last point the invariant gives it back: the scratch column's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl]
  exact PhiS2_out V c _ _

end Cert.KernelIdeal.Hand

end
-- ==== Proof.KI.Run.lean ====
/- The run of @main: its five items in order — the two row-normalising regions, the reshape of the second column of
   squared norms into a row, the nearest-row region, the closing host operations — with the contents of every buffer
   at each boundary between items written as a fold from the launch memory: a host stretch applies its operations, a
   region leaves its input arrays as entered and each output array at what its write-backs leave. Every weakly fair
   execution terminates, and the final memory holds every unscoped buffer at the last fold. -/
import proofs.«110562_j74887049773256_1_alg».proof.Proof.KI.R0
import proofs.«110562_j74887049773256_1_alg».proof.Proof.KI.R1
import proofs.«110562_j74887049773256_1_alg».proof.Proof.KI.R2
import proofs.«110562_j74887049773256_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- At region 0's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the reshape (region 2's entry). -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b

/-- At region 2's exit. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the closing host operations: the final contents. -/
abbrev W5 : Dev nD → Valuation τ sig (Elt F) := fun c => StableHlo.after hostOps3 (W4 m ρ c)

/-! ## The arguments end as launched -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps3 _ hostOps3_writes (by decide)
    _ = W3 m ρ c (Proc.devRef .tc main_arg0) := W4_of_ne m ρ c main_arg0 (by decide)
    _ = W2 m ρ c (Proc.devRef .tc main_arg0) := StableHlo.after_of_writes_sub hostOps2 _ hostOps2_writes (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps3 _ hostOps3_writes (by decide)
    _ = W3 m ρ c (Proc.devRef .tc main_arg1) := W4_of_ne m ρ c main_arg1 (by decide)
    _ = W2 m ρ c (Proc.devRef .tc main_arg1) := StableHlo.after_of_writes_sub hostOps2 _ hostOps2_writes (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as items -/

set_option backward.isDefEq.respectTransparency.types false in
/-- Region 0: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered at `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered at `W3`, left at `W4`; its invariant carries the running minimum in the scratch column. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec2 c).trans (show Pipeline.ΦA spec2 c ⊢ (pdats m ρ 2 c).Φ 0 from hin2 (V3 m ρ) c)
    unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from hout2 (V3 m ρ) c).trans (?_ : Pipeline.ΦA spec2 c ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The frame: every execution ends with the two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run_all m ρ)

end Cert.KernelIdeal.Hand

end
-- ==== Proof.KI.Mid.lean ====
/- What the nearest-row region finds in its four input arrays, and what @main returns, read off the fold of buffer
   contents: the normalised first input and its column of squared norms as region 0 left them, the normalised second
   input as region 1 left it, its column of squared norms reshaped into a row; the result is the closing host
   operations applied to the flattened column of minima region 2 leaves. -/
import proofs.«110562_j74887049773256_1_alg».proof.Proof.KI.Run
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V1_main_arg1 (c : Dev nD) : V1 m ρ c main_arg1 = m ((c : Thread nD τ).loc main_arg1) :=
  W1_of_ne m ρ c main_arg1 (by decide)

theorem V3_main_v0_0 (c : Dev nD) : V3 m ρ c main_v0_0 = (dat0 (V0 m ρ) c).arrAt 1 cfg0.N :=
  calc V3 m ρ c main_v0_0
    _ = W2 m ρ c (Proc.devRef .tc main_v0_0) := StableHlo.after_of_writes_sub hostOps2 _ hostOps2_writes (by decide)
    _ = W1 m ρ c (Proc.devRef .tc main_v0_0) := W2_of_ne m ρ c main_v0_0 (by decide)
    _ = (dat0 (V0 m ρ) c).arrAt 1 cfg0.N := W1_arr m ρ c 1

theorem V3_main_v0_1 (c : Dev nD) : V3 m ρ c main_v0_1 = (dat0 (V0 m ρ) c).arrAt 2 cfg0.N :=
  calc V3 m ρ c main_v0_1
    _ = W2 m ρ c (Proc.devRef .tc main_v0_1) := StableHlo.after_of_writes_sub hostOps2 _ hostOps2_writes (by decide)
    _ = W1 m ρ c (Proc.devRef .tc main_v0_1) := W2_of_ne m ρ c main_v0_1 (by decide)
    _ = (dat0 (V0 m ρ) c).arrAt 2 cfg0.N := W1_arr m ρ c 2

theorem V3_main_v1_0 (c : Dev nD) : V3 m ρ c main_v1_0 = (dat1 (V1 m ρ) c).arrAt 1 cfg1.N :=
  calc V3 m ρ c main_v1_0
    _ = W2 m ρ c (Proc.devRef .tc main_v1_0) := StableHlo.after_of_writes_sub hostOps2 _ hostOps2_writes (by decide)
    _ = (dat1 (V1 m ρ) c).arrAt 1 cfg1.N := W2_arr m ρ c 1

theorem V3_main_v2 (c : Dev nD) : V3 m ρ c main_v2 =
    shapeCast S1x32768 ((dat1 (V1 m ρ) c).arrAt 2 cfg1.N : Vec F S32768x1 .f32) shapeCasts_S32768x1_S1x32768 := by
  have e : W2 m ρ c (Proc.devRef .tc main_v1_1) = (dat1 (V1 m ρ) c).arrAt 2 cfg1.N := W2_arr m ρ c 2
  show StableHlo.after hostOps2 (W2 m ρ c) (Proc.devRef .tc main_v2) = _
  after_results
  rw [e]
  rfl

/-- The closing host operations, as one function of the vector of row minima: the floor added, the logarithm, the
    sum over all rows, divided by the number of rows, negated. -/
def tailK (v : Vec F S8192 .f32) : Vec F S_ .f32 :=
  Host.negf
    (Host.divf
      (Host.reduceAdd
        (Host.log (addf v (broadcastInDim S8192 ![] bcast_S_S8192 (constant (F := F) S_ .f32 0x322BCC77#32))))
        (constant (F := F) S_ .f32 0x00000000#32) reducesTo_S8192_S_d0 h_S_)
      (constant (F := F) S_ .f32 0x46000000#32))

theorem W5_main_v10 (c : Dev nD) : W5 m ρ c (Proc.devRef .tc main_v10) =
    tailK (shapeCast S8192 ((dat2 (V3 m ρ) c).arrAt 4 cfg2.N : Vec F S8192x1 .f32) shapeCasts_S8192x1_S8192) := by
  have e : W4 m ρ c (Proc.devRef .tc main_v3) = (dat2 (V3 m ρ) c).arrAt 4 cfg2.N := W4_arr m ρ c 4
  show StableHlo.after hostOps3 (W4 m ρ c) (Proc.devRef .tc main_v10) = _
  after_results
  rw [e]
  rfl

end Cert.KernelIdeal.Hand

end
-- ==== Proof.RefTail.lean ====
/- The reference's closing host operations as one function of its vector of row minima (the floor added, the
   logarithm, the sum over all rows, divided by the number of rows, negated): the result stage is that function of the
   stage of row minima. -/
import proofs.«110562_j74887049773256_1_alg».proof.Proof.Gen.ReferenceIdeal.Read

noncomputable section

namespace Cert.ReferenceIdeal.RefTail

open Cert.ReferenceIdeal Cert.ReferenceIdeal.Gen Idealize.ShloMosaic Idealize.ShloMosaic.TcCoe Idealize.SL.Sem Idealize.ShloMosaic.StableHlo

variable {F : FTy → Type} [FloatOps F]

/-- The closing host operations, as one function of the vector of row minima. -/
def tailR (v : Vec F S8192 .f32) : Vec F S_ .f32 :=
  Host.negf
    (Host.divf
      (Host.reduceAdd
        (Host.log (addf v (broadcastInDim S8192 ![] bcast_S_S8192 (constant (F := F) S_ .f32 0x322BCC77#32))))
        (constant (F := F) S_ .f32 0x00000000#32) reducesTo_S8192_S_d0 h_S_)
      (constant (F := F) S_ .f32 0x46000000#32))

/-- The result stage is the closing operations applied to the stage of row minima. -/
theorem val_main_v49_tail (X : (⟨S8192x1024, .f32⟩ : BufTy).Contents (Elt F)) (Y : (⟨S32768x1024, .f32⟩ : BufTy).Contents (Elt F)) :
    Read.val_main_v49 (F := F) X Y = tailR (Read.val_main_v43 (F := F) X Y) := rfl

end Cert.ReferenceIdeal.RefTail

end
-- ==== Proof.Spec.lean ====
/- The mathematics both programs compute, stated once over the extended reals and free of any program's names.
   A matrix is a function on rank-2 indices. Each row of the two inputs is divided by the larger of its Euclidean norm
   and a small floor; the squared distance between a normalised row `r` of the first and a normalised row `q` of the
   second is taken from their squared norms and their inner product, clamped at zero, and its root is raised by one on
   the leading diagonal (`r = q`); each row `r` keeps the least of these over all `q`; the result is minus the mean of the
   logarithms of those minima raised by the floor. The minimum over all 32768 columns is also the minimum over 32 tiles
   of the minima within each tile of 1024 columns (`inf_tiles`), which is how a tiled running minimum reaches it. -/
import Idealize.ShloMosaic.PureOps.Ideal
import Idealize.ShloMosaic.PureOps.Ideal.Laws
import Idealize.ShloMosaic.Lib.ValueIdx
import Mathlib.Data.Finset.Lattice.Fold
import Mathlib.Logic.Equiv.Fin.Basic

noncomputable section

open scoped BigOperators

namespace Cert.Spec

open Idealize.ShloMosaic Idealize.ShloMosaic.ValueIdx

/-- A matrix of extended reals on rank-2 indices. -/
abbrev Mat (R C : Nat) : Type := (⟨2, ![R, C]⟩ : Shape).Idx → EReal

/-- The floor under a row's norm, and under a minimum before its logarithm: the binary value both programs write. -/
def floorW : EReal := Ideal.ofBits .f32 0x322BCC77#32
/-- The factor of the inner product in a squared distance. -/
def twoW : EReal := Ideal.ofBits .f32 0x40000000#32
/-- What the leading diagonal is raised by. -/
def oneW : EReal := Ideal.ofBits .f32 0x3F800000#32

/-- The sum of the squares of row `r`. -/
def rowSq {R : Nat} (x : Mat R 1024) (r : Fin R) : EReal := ∑ k : Fin 1024, x (ix2 r k) * x (ix2 r k)

/-- Entry `(r, k)` of the row-normalised matrix: the entry over the larger of the row's norm and the floor. -/
def nrmAt {R : Nat} (x : Mat R 1024) (r : Fin R) (k : Fin 1024) : EReal :=
  Ideal.div (x (ix2 r k)) (max (Ideal.sqrt (rowSq x r)) floorW)

/-- The row-normalised matrix. -/
def nrm {R : Nat} (x : Mat R 1024) : Mat R 1024 := fun i => nrmAt x (i 0) (i 1)

theorem nrm_ix2 {R : Nat} (x : Mat R 1024) (r : Fin R) (k : Fin 1024) : nrm x (ix2 r k) = nrmAt x r k := rfl

/-- The distance of row `r` of `s` to row `q` of `mm`, from their squared norms `ss r`, `ms q` and their inner product. -/
def baseAt (s : Mat 8192 1024) (ss : Fin 8192 → EReal) (mm : Mat 32768 1024) (ms : Fin 32768 → EReal)
    (r : Fin 8192) (q : Fin 32768) : EReal :=
  Ideal.sqrt (max ((ss r + ms q) - twoW * ∑ k : Fin 1024, s (ix2 r k) * mm (ix2 q k)) 0)

/-- The same raised by one on the leading diagonal. -/
def distAt (s : Mat 8192 1024) (ss : Fin 8192 → EReal) (mm : Mat 32768 1024) (ms : Fin 32768 → EReal)
    (r : Fin 8192) (q : Fin 32768) : EReal :=
  if r.val = q.val then baseAt s ss mm ms r q + oneW else baseAt s ss mm ms r q

/-- The distances between the normalised rows of the two inputs. -/
def D (X : Mat 8192 1024) (Y : Mat 32768 1024) (r : Fin 8192) (q : Fin 32768) : EReal :=
  distAt (nrm X) (rowSq (nrm X)) (nrm Y) (rowSq (nrm Y)) r q

/-- The least distance of row `r` to any row of the second input. -/
def minDist (X : Mat 8192 1024) (Y : Mat 32768 1024) (r : Fin 8192) : EReal :=
  Finset.univ.inf fun q : Fin 32768 => D X Y r q

/-- Column `q` of tile `j` of 1024 columns. -/
def colOf (j : Fin 32) (q : Fin 1024) : Fin 32768 := ⟨j.val * 1024 + q.val, by have := j.isLt; have := q.isLt; omega⟩

/-- The least of a row of values within tile `j`. -/
def tileMin (f : Fin 32768 → EReal) (j : Fin 32) : EReal := Finset.univ.inf fun q : Fin 1024 => f (colOf j q)

/-- The least over all columns is the least over the tiles of the least within each. -/
theorem inf_tiles (f : Fin 32768 → EReal) : (Finset.univ.inf fun j : Fin 32 => tileMin f j) = Finset.univ.inf f := by
  apply le_antisymm
  · refine Finset.le_inf fun q' _ => ?_
    have h1 : q'.val / 1024 < 32 := by have := q'.isLt; omega
    have h2 : q'.val % 1024 < 1024 := Nat.mod_lt _ (by norm_num)
    have e : colOf ⟨q'.val / 1024, h1⟩ ⟨q'.val % 1024, h2⟩ = q' := by
      apply Fin.ext; simp only [colOf]; omega
    calc (Finset.univ.inf fun j : Fin 32 => tileMin f j) ≤ tileMin f ⟨q'.val / 1024, h1⟩ := Finset.inf_le (Finset.mem_univ _)
      _ ≤ f (colOf ⟨q'.val / 1024, h1⟩ ⟨q'.val % 1024, h2⟩) := Finset.inf_le (f := fun q : Fin 1024 => f (colOf ⟨q'.val / 1024, h1⟩ q)) (Finset.mem_univ _)
      _ = f q' := by rw [e]
  · refine Finset.le_inf fun j _ => Finset.le_inf fun q _ => Finset.inf_le (Finset.mem_univ _)

/-- A fold of `min` from the top over all of a finite type is its infimum. -/
theorem fold_min_top {ι : Type} [Fintype ι] (f : ι → EReal) : Finset.univ.fold min ⊤ f = Finset.univ.inf f := by
  rw [Finset.inf_def]; rfl

/-- The running minimum through the tiles: the least over tiles `0 … n`. -/
def runMin (f : Fin 32768 → EReal) : (n : ℕ) → n < 32 → EReal
  | 0, h => min ⊤ (tileMin f ⟨0, h⟩)
  | n + 1, h => min (runMin f n (Nat.lt_of_succ_lt h)) (tileMin f ⟨n + 1, h⟩)

/-- The running minimum after tile `n` is the least over the tiles up to `n`. -/
theorem runMin_eq (f : Fin 32768 → EReal) (n : ℕ) (h : n < 32) :
    runMin f n h = (Finset.univ.filter fun j : Fin 32 => j.val ≤ n).inf fun j => tileMin f j := by
  induction n with
  | zero =>
    have : (Finset.univ.filter fun j : Fin 32 => j.val ≤ 0) = {⟨0, h⟩} := by
      ext j; simp only [Finset.mem_filter, Finset.mem_univ, true_and, Finset.mem_singleton, Fin.ext_iff]; omega
    rw [this, Finset.inf_singleton]; simp only [runMin, top_inf_eq, min_eq_right le_top]
  | succ n ih =>
    have : (Finset.univ.filter fun j : Fin 32 => j.val ≤ n + 1) = insert ⟨n + 1, h⟩ (Finset.univ.filter fun j : Fin 32 => j.val ≤ n) := by
      ext j; simp only [Finset.mem_filter, Finset.mem_univ, true_and, Finset.mem_insert, Fin.ext_iff]; omega
    rw [this, Finset.inf_insert, runMin, ih (Nat.lt_of_succ_lt h), min_comm]

/-- After the last tile the running minimum is the least over all columns. -/
theorem runMin_last (f : Fin 32768 → EReal) : runMin f 31 (by norm_num) = Finset.univ.inf f := by
  rw [runMin_eq, ← inf_tiles]
  have e : (Finset.univ.filter fun j : Fin 32 => j.val ≤ 31) = Finset.univ := by
    ext j; simp only [Finset.mem_filter, Finset.mem_univ, true_and, iff_true]; have := j.isLt; omega
  rw [e]

end Cert.Spec

end
-- ==== Proof.KI.Val2a.lean ====
/- The tile payload of the nearest-row region read at an index, over the extended reals. A tile is 512 rows of the
   first normalised input against 1024 rows of the second; its payload is the column of the tile's row minima. Read at
   row `p`: the matrix product into a zero accumulator is the inner product of row `p` with the second input's row
   `q` (the transpose swaps the coordinates), the squared norms are broadcast along the other axis, the clamped
   root is taken elementwise, the leading-diagonal mask compares the row's and the column's numbers in the whole
   arrays as 32-bit words (nothing wraps at these sizes), and the minimum over the columns from +∞ is the infimum of
   the row. -/
import proofs.«110562_j74887049773256_1_alg».proof.Proof.KI.R2
import proofs.«110562_j74887049773256_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.Val2

open Cert.KernelIdeal Cert.KernelIdeal.Gen
open Idealize.ShloMosaic Idealize.ShloMosaic.TcCoe Idealize.ShloMosaic.ValueIdx
open Idealize.ShloMosaic.Pipeline (Dat Cfg Window)
open scoped BigOperators

/-! ## The tile's matrix product at an index -/

/-- The operands' indices of the product at an output index and a contraction index, axis by axis: the left
    operand's are (row, contraction), the right operand's (contraction, column). -/
theorem lhs_mm_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_mm_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_mm_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_mm_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero accumulator, at row `p` and column `q`: the sum over the contraction of the left
    operand's row `p` times the right operand's column `q`. -/
theorem mm_apply (x : FVec Ideal S512x1024 .bf16) (y : FVec Ideal S1024x1024 .bf16) (p : Fin 512) (q : Fin 1024) :
    matmul dot_S512x1024_S1024x1024_S512x1024_1_0_0_1_n_n none x y (constant (F := Ideal) S512x1024 .f32 0x00000000#32) (ix2 p q)
      = ∑ k : Fin 1024, x (ix2 p k) * y (ix2 k q) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p q) ((ValueIdx.contrEquiv1 dot_S512x1024_S1024x1024_S512x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S512x1024_S1024x1024_S512x1024_1_0_0_1_n_n.rhsIdx (ix2 p q) ((ValueIdx.contrEquiv1 dot_S512x1024_S1024x1024_S512x1024_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-! ## The layout operations of the tile at an index -/

/-- A column broadcast over many: a `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column: an `[a]` array cast to `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The constants -/

/-- The binary value of +∞ is the top of the extended reals. -/
theorem inf_eq_top : Ideal.ofBits .f32 0x7F800000#32 = (⊤ : EReal) := by simp [Ideal.ofBits, Ideal.ieee]

/-! ## The distance at an index -/

/-- The clamped root at row `p` and column `q`, over the row's and the column's squared norms and the product `m`. -/
theorem base_apply (m : FVec Ideal S512x1024 .f32) (v10 : FVec Ideal S512x1 .f32) (v12 : FVec Ideal S1x1024 .f32)
    (p : Fin 512) (q : Fin 1024) :
    sqrt (maximumf (subf (addf (broadcastTo S512x1024 v10 broadcasts_S512x1_S512x1024) (broadcastTo S512x1024 v12 broadcasts_S1x1024_S512x1024))
        (mulf (broadcast S512x1024 (Scalar.ofBits (F := Ideal) .f32 0x40000000#32)) m))
      (broadcast S512x1024 (Scalar.ofBits (F := Ideal) .f32 0x00000000#32))) (ix2 p q)
      = Ideal.sqrt (max ((v10 (ix2 p 0) + v12 (ix2 0 q)) - Spec.twoW * m (ix2 p q)) 0) := by
  show Ideal.sqrt (max ((broadcastTo S512x1024 v10 broadcasts_S512x1_S512x1024 (ix2 p q) + broadcastTo S512x1024 v12 broadcasts_S1x1024_S512x1024 (ix2 p q))
      - Ideal.ofBits .f32 0x40000000#32 * m (ix2 p q)) (Ideal.ofBits .f32 0x00000000#32)) = _
  rw [broadcastTo_a1_ab_apply, broadcastTo_1b_ab_apply, Ideal.ofBits_zero_f32]
  rfl

/-! ## The leading diagonal's mask at an index -/

/-- The two 32-bit row and column numbers agree exactly when the numbers do: nothing wraps at these sizes. -/
theorem word_eq_iff (a b p q : ℕ) (ha : a < 16) (hb : b < 32) (hp : p < 512) (hq : q < 1024) :
    (BitVec.ofNat 32 a * 512#32 + BitVec.ofNat 32 p = BitVec.ofNat 32 b * 1024#32 + BitVec.ofNat 32 q)
      ↔ a * 512 + p = b * 1024 + q := by
  rw [← BitVec.toNat_inj]
  simp only [BitVec.toNat_add, BitVec.toNat_mul, BitVec.toNat_ofNat, Nat.reducePow, Nat.reduceMod]
  omega

/-- The mask at row `p` and column `q` of the tile at grid point `i`: set exactly on the array's leading diagonal. -/
theorem mask_apply (i : grid2.Coords) (p : Fin 512) (q : Fin 1024) :
    cmpi .eq
      (broadcastTo S512x1024 (addi (broadcast S512x1 (Scalar.muli (BitVec.ofNat 32 (i 0).val) 512#32)) (iota .tc S512x1 32 [0] iota_S512x1_d0_w32)) broadcasts_S512x1_S512x1024)
      (broadcastTo S512x1024 (addi (broadcast S1x1024 (Scalar.muli (BitVec.ofNat 32 (i 1).val) 1024#32)) (iota .tc S1x1024 32 [1] iota_S1x1024_d1_w32)) broadcasts_S1x1024_S512x1024)
      (ix2 p q)
      = if (i 0).val * 512 + p.val = (i 1).val * 1024 + q.val then 1#1 else 0#1 := by
  show IntOp.cmpi .eq
      (broadcastTo S512x1024 (addi (broadcast S512x1 (Scalar.muli (BitVec.ofNat 32 (i 0).val) 512#32)) (iota .tc S512x1 32 [0] iota_S512x1_d0_w32)) broadcasts_S512x1_S512x1024 (ix2 p q))
      (broadcastTo S512x1024 (addi (broadcast S1x1024 (Scalar.muli (BitVec.ofNat 32 (i 1).val) 1024#32)) (iota .tc S1x1024 32 [1] iota_S1x1024_d1_w32)) broadcasts_S1x1024_S512x1024 (ix2 p q)) = _
  rw [broadcastTo_a1_ab_apply, broadcastTo_1b_ab_apply]
  show IntOp.cmpi .eq
      (BitVec.ofNat 32 (i 0).val * 512#32 + iota .tc S512x1 32 [0] iota_S512x1_d0_w32 (ix2 p 0))
      (BitVec.ofNat 32 (i 1).val * 1024#32 + iota .tc S1x1024 32 [1] iota_S1x1024_d1_w32 (ix2 0 q)) = _
  rw [iota_single_apply, iota_single_apply]
  show BitVec.ofBool (BitVec.ofNat 32 (i 0).val * 512#32 + BitVec.ofNat 32 p.val == BitVec.ofNat 32 (i 1).val * 1024#32 + BitVec.ofNat 32 q.val) = _
  have h0 : (i 0).val < 16 := (i 0).isLt
  have h1 : (i 1).val < 32 := (i 1).isLt
  have hw := word_eq_iff (i 0).val (i 1).val p.val q.val h0 h1 p.isLt q.isLt
  by_cases h : (i 0).val * 512 + p.val = (i 1).val * 1024 + q.val
  · rw [if_pos h, hw.mpr h, beq_self_eq_true]; rfl
  · rw [if_neg h, beq_eq_false_iff_ne.mpr fun e => h (hw.mp e)]; rfl

/-! ## The row minimum at an index -/

/-- A minimum over one axis at the extended reals: the fold of `min` from the accumulator's value over that axis's
    coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A fold of `min` from the binary value of +∞ over all of a finite type is its infimum. -/
theorem fold_min_inf {ι : Type} [Fintype ι] (f : ι → EReal) :
    (Finset.univ : Finset ι).fold min (Ideal.ofBits .f32 0x7F800000#32) f = Finset.univ.inf f := by
  rw [inf_eq_top]; exact Spec.fold_min_top f

/-- The source index over row `p` with column `q` inserted is `(p, q)`. -/
theorem lift_row (p : Fin 512) (q : Fin 1024) : reduces_S512x1024_S512.lift (ix1 p) q = ix2 p q :=
  funext fun a => Fin.ext (by
    match a with
    | ⟨0, _⟩ => rfl
    | ⟨1, _⟩ => rfl)

/-- The row minimum of a tile from +∞, as a column, at row `p`: the least of the row. -/
theorem rowMin_apply (x : FVec Ideal S512x1024 .f32) (p : Fin 512) :
    shapeCast S512x1 (multiReduction .minimumf [1] S512 x 0x7F800000#32 reduces_S512x1024_S512 (.inl rfl) rfl) shapeCasts_S512_S512x1 (ix2 p 0)
      = Finset.univ.inf fun q : Fin 1024 => x (ix2 p q) := by
  rw [shapeCast_a_a1_apply]
  refine (multiReduction_minimumf_single x _ reduces_S512x1024_S512 _ _ (ix1 p)).trans ?_
  exact (fold_min_inf (ι := Fin 1024) _).trans (Finset.inf_congr rfl fun q _ => congrArg x (lift_row p q))

/-! ## The tile payload at an index -/

/-- The distance of the tile's row `p` to its column `q`, from the loaded blocks. -/
def tileBase (v3 : Vec Ideal S512x1024 .bf16) (v5 : Vec Ideal S1024x1024 .bf16) (v9 : Vec Ideal S512x1 .f32)
    (v11 : Vec Ideal S1x1024 .f32) (p : Fin 512) (q : Fin 1024) : EReal :=
  Ideal.sqrt (max ((v9 (ix2 p 0) + v11 (ix2 0 q)) - Spec.twoW * ∑ k : Fin 1024, v3 (ix2 p k) * v5 (ix2 q k)) 0)

/-- The tile's column of row minima at row `p`: the least over the tile's columns of the distance, raised by one
    where the row's and the column's numbers in the whole arrays agree. -/
theorem pay3_apply (i : grid2.Coords) (v3 : Vec Ideal S512x1024 .bf16) (v5 : Vec Ideal S1024x1024 .bf16)
    (v9 : Vec Ideal S512x1 .f32) (v11 : Vec Ideal S1x1024 .f32) (p : Fin 512) :
    k2_pay3 (F := Ideal) i v3 v5 v9 v11 (ix2 p 0) = Finset.univ.inf fun q : Fin 1024 =>
      if (i 0).val * 512 + p.val = (i 1).val * 1024 + q.val then tileBase v3 v5 v9 v11 p q + Spec.oneW
      else tileBase v3 v5 v9 v11 p q := by
  unfold k2_pay3
  dsimp only
  refine (rowMin_apply _ p).trans (Finset.inf_congr rfl fun q _ => ?_)
  refine (select_apply _ _ _ _).trans ?_
  rw [mask_apply, addf_apply, base_apply, shapeCast_self, shapeCast_self, shapeCast_self, shapeCast_self, mm_apply]
  have hs : (∑ k : Fin 1024, v3 (ix2 p k) * transpose S1024x1024 [1, 0] v5 transposes_S1024x1024_p1_0_S1024x1024 (ix2 k q))
      = ∑ k : Fin 1024, v3 (ix2 p k) * v5 (ix2 q k) :=
    Finset.sum_congr rfl fun k _ => by rw [transpose_ix2_apply]
  rw [hs]
  by_cases h : (i 0).val * 512 + p.val = (i 1).val * 1024 + q.val
  · rw [if_pos h, if_pos h, select_one]; rfl
  · rw [if_neg h, if_neg h, select_zero]; rfl

end Cert.KernelIdeal.Val2

end
-- ==== Proof.KI.Val2c.lean ====
/- The running minimum of the nearest-row region in closed form. The grid is 16 row tiles by 32 column tiles; at point
   `t` the body reads rows `512 (t / 32) …` of the first normalised array and its squared norms, and rows
   `1024 (t % 32) …` of the second and its squared norms. The tile's column of row minima is therefore the least, over
   the tile's 1024 columns, of the distance of an array row to an array column, the leading diagonal of the whole arrays
   raised by one; the scratch column starts a row tile at the least of that and +∞ and is lowered by every later
   tile; so after point `t` it holds the running minimum through the tiles `0 … t % 32`. -/
import proofs.«110562_j74887049773256_1_alg».proof.Proof.KI.Val2a
import proofs.«110562_j74887049773256_1_alg».proof.Proof.Spec
import Idealize.ShloMosaic.Lib.Pipeline.Value
import Idealize.ShloMosaic.Lib.ValueIdx

noncomputable section

namespace Cert.KernelIdeal.Val2

open Cert.KernelIdeal Cert.KernelIdeal.Gen Cert.KernelIdeal.Hand
open Idealize.ShloMosaic Idealize.ShloMosaic.TcCoe Idealize.ShloMosaic.ValueIdx Idealize.SL.Sem
open scoped BigOperators

variable (V : (c : Dev nD) → (b : Ref sig .tc) → Buf (Elt Ideal) ((c : Thread nD τ).loc b))

/-- The distances of row `r` of the first normalised array to every row of the second, from the four arrays the
    region reads. -/
def rowD (c : Dev nD) (r : Fin 8192) (q : Fin 32768) : EReal :=
  Spec.distAt (V c main_v0_0) (fun r => V c main_v0_1 (ix2 r 0)) (V c main_v1_0) (fun q => V c main_v2 (ix2 0 q)) r q

/-- The array row that block row `p` of point `t`'s row tile is. -/
def rowOf (t : Fin cfg2.N) (p : Fin 512) : Fin 8192 :=
  ⟨(t.val / 32) * 512 + p.val, by have := t.isLt; have h : cfg2.N = 512 := N_2; have := p.isLt; omega⟩

/-! ## The index maps -/

/-- The printed index maps of region 2, decided over its 512 points: point `t` is row tile `t / 32` and column tile
    `t % 32`; the row windows' blocks are block row `t / 32`, the column windows' are block `t % 32`. -/
theorem pointFacts2 : ∀ t : Fin cfg2.N, t.val < 512
    ∧ (grid2.coords t 0).val = t.val / 32 ∧ (grid2.coords t 1).val = t.val % 32
    ∧ win2_0.index t (0 : Fin 2) = t.val / 32 ∧ win2_0.index t (1 : Fin 2) = 0
    ∧ win2_1.index t (0 : Fin 2) = t.val / 32 ∧ win2_1.index t (1 : Fin 2) = 0
    ∧ win2_2.index t (0 : Fin 2) = t.val % 32 ∧ win2_2.index t (1 : Fin 2) = 0
    ∧ win2_3.index t (0 : Fin 2) = 0 ∧ win2_3.index t (1 : Fin 2) = t.val % 32
    ∧ win2_4.index t (0 : Fin 2) = t.val / 32 ∧ win2_4.index t (1 : Fin 2) = 0 :=
  (by decide +kernel : ∀ t : Fin grid2.N, _)

/-! ## The four input blocks at a point, as rows and columns of their arrays -/

/-- Row `p` of the row tile at point `t` is row `512 (t / 32) + p` of the first normalised input. -/
theorem iblk2_0_apply (c : Dev nD) (t : Fin cfg2.N) (p : Fin 512) (k : Fin 1024) (r : Fin 8192) (hr : r.val = t.val / 32 * 512 + p.val) :
    (iblk2 V c 0 t : Vec Ideal S512x1024 .bf16) (ix2 p k) = (V c main_v0_0 : S8192x1024.Idx → EReal) (ix2 r k) := by
  obtain ⟨-, -, -, e0, e1, -⟩ := pointFacts2 t
  unfold iblk2
  rw [View.read_apply]
  show V c main_v0_0 _ = V c main_v0_0 _
  congr 1
  funext a
  apply Fin.ext
  match a with
  | ⟨0, _⟩ => show win2_0.index t (0 : Fin 2) * 512 + 1 * p.val = r.val; omega
  | ⟨1, _⟩ => show win2_0.index t (1 : Fin 2) * 1024 + 1 * k.val = k.val; omega

/-- Its squared norms likewise. -/
theorem iblk2_1_apply (c : Dev nD) (t : Fin cfg2.N) (p : Fin 512) (u : Fin 1) (r : Fin 8192) (hr : r.val = t.val / 32 * 512 + p.val) :
    (iblk2 V c 1 t : Vec Ideal S512x1 .f32) (ix2 p u) = (V c main_v0_1 : S8192x1.Idx → EReal) (ix2 r u) := by
  obtain ⟨-, -, -, -, -, e0, e1, -⟩ := pointFacts2 t
  unfold iblk2
  rw [View.read_apply]
  show V c main_v0_1 _ = V c main_v0_1 _
  congr 1
  funext a
  apply Fin.ext
  match a with
  | ⟨0, _⟩ => show win2_1.index t (0 : Fin 2) * 512 + 1 * p.val = r.val; omega
  | ⟨1, _⟩ => show win2_1.index t (1 : Fin 2) * 1 + 1 * u.val = u.val; omega

/-- Row `q` of the column tile at point `t` is row `1024 (t % 32) + q` of the second normalised input. -/
theorem iblk2_2_apply (c : Dev nD) (t : Fin cfg2.N) (q : Fin 1024) (k : Fin 1024) (s : Fin 32768) (hs : s.val = t.val % 32 * 1024 + q.val) :
    (iblk2 V c 2 t : Vec Ideal S1024x1024 .bf16) (ix2 q k) = (V c main_v1_0 : S32768x1024.Idx → EReal) (ix2 s k) := by
  obtain ⟨-, -, -, -, -, -, -, e0, e1, -⟩ := pointFacts2 t
  unfold iblk2
  rw [View.read_apply]
  show V c main_v1_0 _ = V c main_v1_0 _
  congr 1
  funext a
  apply Fin.ext
  match a with
  | ⟨0, _⟩ => show win2_2.index t (0 : Fin 2) * 1024 + 1 * q.val = s.val; omega
  | ⟨1, _⟩ => show win2_2.index t (1 : Fin 2) * 1024 + 1 * k.val = k.val; omega

/-- Its squared norms, a row, likewise. -/
theorem iblk2_3_apply (c : Dev nD) (t : Fin cfg2.N) (u : Fin 1) (q : Fin 1024) (s : Fin 32768) (hs : s.val = t.val % 32 * 1024 + q.val) :
    (iblk2 V c 3 t : Vec Ideal S1x1024 .f32) (ix2 u q) = (V c main_v2 : S1x32768.Idx → EReal) (ix2 u s) := by
  obtain ⟨-, -, -, -, -, -, -, -, -, e0, e1, -⟩ := pointFacts2 t
  unfold iblk2
  rw [View.read_apply]
  show V c main_v2 _ = V c main_v2 _
  congr 1
  funext a
  apply Fin.ext
  match a with
  | ⟨0, _⟩ => show win2_3.index t (0 : Fin 2) * 1 + 1 * u.val = u.val; omega
  | ⟨1, _⟩ => show win2_3.index t (1 : Fin 2) * 1024 + 1 * q.val = s.val; omega

/-! ## The tile's row minima at an index -/

/-- The tile's distance of block row `p` to block column `q` is the arrays' distance of row `r` to row `s`, the rows
    those two are. -/
theorem tileBase_iblk2 (c : Dev nD) (t : Fin cfg2.N) (p : Fin 512) (q : Fin 1024) (r : Fin 8192) (hr : r.val = t.val / 32 * 512 + p.val)
    (s : Fin 32768) (hs : s.val = t.val % 32 * 1024 + q.val) :
    tileBase (iblk2 V c 0 t) (iblk2 V c 2 t) (iblk2 V c 1 t) (iblk2 V c 3 t) p q
      = Spec.baseAt (V c main_v0_0) (fun r => V c main_v0_1 (ix2 r 0)) (V c main_v1_0) (fun q => V c main_v2 (ix2 0 q)) r s := by
  unfold tileBase Spec.baseAt
  rw [iblk2_1_apply V c t p 0 r hr, iblk2_3_apply V c t 0 q s hs]
  congr 4
  exact Finset.sum_congr rfl fun k _ => by rw [iblk2_0_apply V c t p k r hr, iblk2_2_apply V c t q k s hs]

/-- The tile's column of row minima at block row `p`: the least distance of the array row `r` that is to the columns of
    tile `j`, the point's column tile. -/
theorem tile2_apply (c : Dev nD) (t : Fin cfg2.N) (p : Fin 512) (r : Fin 8192) (hr : r.val = t.val / 32 * 512 + p.val)
    (j : Fin 32) (hj : j.val = t.val % 32) :
    tile2 V c t (ix2 p 0) = Spec.tileMin (rowD V c r) j := by
  obtain ⟨-, g0, g1, -⟩ := pointFacts2 t
  unfold tile2
  rw [pay3_apply]
  unfold Spec.tileMin
  refine Finset.inf_congr rfl fun q _ => ?_
  have hs : (Spec.colOf j q).val = t.val % 32 * 1024 + q.val := by
    show j.val * 1024 + q.val = _
    rw [hj]
  rw [tileBase_iblk2 V c t p q r hr (Spec.colOf j q) hs]
  unfold rowD Spec.distAt
  have hiff : ((grid2.coords t 0).val * 512 + p.val = (grid2.coords t 1).val * 1024 + q.val) ↔ r.val = (Spec.colOf j q).val := by
    rw [g0, g1, hr, hs]
  by_cases h : r.val = (Spec.colOf j q).val
  · rw [if_pos h, if_pos (hiff.mpr h)]
  · rw [if_neg h, if_neg (mt hiff.mp h)]

/-! ## The scratch column's two updates at an index -/

/-- Lowering the scratch column by a tile's minima: the lesser of the two, entry by entry. -/
theorem pay1_apply (v37 : FVec Ideal S512x1 .f32) (v38 : Vec Ideal S512x1 .f32) (j : S512x1.Idx) :
    k2_pay1 (F := Ideal) v37 v38 j = min (v38 j) (v37 j) := by
  unfold k2_pay1
  rw [shapeCast_self, minimumf_apply]

/-- The column a row tile starts from is +∞ everywhere. -/
theorem pay2_apply (j : S512x1.Idx) : k2_pay2 (F := Ideal) j = (⊤ : EReal) := by
  unfold k2_pay2
  rw [shapeCast_self, broadcast_apply]
  exact inf_eq_top

/-! ## The running minimum -/

/-- After the body at position `n` the scratch column holds, at block row `p`, the running minimum of the array row
    `r` that is through the tiles `0 … n % 32`: by induction on the position, a row tile's first point starting from
    +∞ and every later one lowering what the point before left. -/
theorem acc2_at (c : Dev nD) : ∀ (n : ℕ) (hn : n < cfg2.N) (p : Fin 512) (r : Fin 8192) (hr : r.val = n / 32 * 512 + p.val)
    (j : ℕ) (hj : j < 32) (hnj : n % 32 = j), acc2 V c n hn (ix2 p 0) = Spec.runMin (rowD V c r) j hj := by
  intro n
  induction n with
  | zero =>
    intro hn p r hr j hj hnj
    obtain rfl : j = 0 := by omega
    refine (congrFun (acc2_first V c ⟨0, hn⟩ rfl) _).trans ?_
    rw [pay1_apply, pay2_apply, tile2_apply V c ⟨0, hn⟩ p r hr ⟨0, hj⟩ rfl]
    rfl
  | succ m ih =>
    intro hn p r hr j hj hnj
    by_cases h0 : (m + 1) % 32 = 0
    · obtain rfl : j = 0 := by omega
      refine (congrFun (acc2_first V c ⟨m + 1, hn⟩ h0) _).trans ?_
      rw [pay1_apply, pay2_apply, tile2_apply V c ⟨m + 1, hn⟩ p r hr ⟨0, hj⟩ (by show 0 = (m + 1) % 32; omega)]
      rfl
    · obtain ⟨j', rfl⟩ : ∃ j', j = j' + 1 := ⟨j - 1, by omega⟩
      refine (congrFun (acc2_next V c ⟨m + 1, hn⟩ h0) _).trans ?_
      rw [pay1_apply, tile2_apply V c ⟨m + 1, hn⟩ p r hr ⟨j' + 1, hj⟩ (by show j' + 1 = (m + 1) % 32; omega)]
      have hprev := ih (Nat.lt_of_succ_lt hn) p r (by omega) j' (by omega) (by omega)
      show min (acc2 V c m _ (ix2 p 0)) _ = _
      rw [hprev]
      rfl

/-- After the body at point `t` the scratch column holds, at block row `p`, the least distance of that row to the
    columns of the tiles `0 … t % 32`. -/
theorem acc2_apply (c : Dev nD) (t : Fin cfg2.N) (p : Fin 512) :
    acc2 V c t.val t.isLt (ix2 p 0) = Spec.runMin (rowD V c (rowOf t p)) (t.val % 32) (Nat.mod_lt _ (by norm_num)) :=
  acc2_at V c t.val t.isLt p (rowOf t p) rfl (t.val % 32) _ rfl

end Cert.KernelIdeal.Val2

end
-- ==== Proof.KI.Val2.lean ====
/- The nearest-row region's output array, as a value over the extended reals. The output column is written back in
   blocks of 512 rows, one per row tile, only at the last of the row tile's 32 column tiles; there the scratch column
   holds, in block row `p`, the running minimum through all 32 tiles, which is the least distance of that row to every
   row of the second array. Block row `p` of row tile `a` is array row `512 a + p`, the 16 written-back blocks cover
   the 8192 rows, so after the region row `r` of the output holds the least, over all 32768 rows `q` of the second
   normalised array, of the distance of row `r` of the first to row `q`, raised by one on the leading diagonal. -/
import proofs.«110562_j74887049773256_1_alg».proof.Proof.KI.Val2c
import Idealize.ShloMosaic.Lib.Pipeline.Value

set_option maxRecDepth 16384

noncomputable section

namespace Cert.KernelIdeal.Val2

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-- What the output array ends holding: in row `r`, the least distance of row `r` of the first normalised array to
    any row of the second. -/
def G2 (c : Dev nD) : S8192x1.Idx → EReal := fun i => Finset.univ.inf (rowD V c (i 0))

/-- The output window's index map, decided over the 512 points: the block at point `t` is block row `t / 32`. -/
theorem idx_facts2_4 : ∀ t : Fin cfg2.N, t.val < 512
    ∧ win2_4.index t (0 : Fin 2) = t.val / 32 ∧ win2_4.index t (1 : Fin 2) = 0 :=
  (by decide +kernel : ∀ t : Fin grid2.N, _)

/-- Index `(p, q)` of the output block at point `t` lies at `(512 (t / 32) + p, q)` of the output array. -/
theorem emb2_4 (t : Fin cfg2.N) (p : Fin 512) (q : Fin 1) :
    ((cfg2.win 4).blk t).view.emb (ix2 p q) = (ix2 (rowOf t p) q : S8192x1.Idx) := by
  obtain ⟨-, e0, e1⟩ := idx_facts2_4 t
  funext a
  apply Fin.ext
  match a with
  | ⟨0, _⟩ => show win2_4.index t (0 : Fin 2) * 512 + 1 * p.val = t.val / 32 * 512 + p.val; omega
  | ⟨1, _⟩ => show win2_4.index t (1 : Fin 2) * 1 + 1 * q.val = q.val; omega

/-- The running minimum's position, as a number, may be replaced by an equal one. -/
theorem runMin_congr (f : Fin 32768 → EReal) (n m : ℕ) (hn : n < 32) (hm : m < 32) (e : n = m) :
    Spec.runMin f n hn = Spec.runMin f m hm := by
  subst e; rfl

/-- A function on the output array read through point `t`'s block is the function where the block's index lies. -/
theorem read2_4_apply (G : S8192x1.Idx → EReal) (t : Fin cfg2.N) (j : S512x1.Idx) :
    ((cfg2.win 4).blk t).view.read (Elt Ideal) G j = G (((cfg2.win 4).blk t).view.emb j) := rfl

/-- The scratch column through the output window's cut: the block is whole, so nothing is cut away. -/
theorem cut2_4_apply (t : Fin cfg2.N) (X : S512x1.Idx → EReal) (p : Fin 512) (q : Fin 1) :
    (cfg2.win 4).cut (grid2.coords t) X (ix2 p q) = X (ix2 p q) := rfl

/-- What a point at the last column tile of a row tile writes back is its block of the least distances: after the
    32nd tile the running minimum of a row is the least over all columns. -/
theorem flushed2_4_eq (c : Dev nD) (t : Fin cfg2.N) (hf : (cfg2.win 4).flush t = true) :
    (dat2 V c).flushed 4 t = ((cfg2.win 4).blk t).view.read (Elt Ideal) (G2 V c) := by
  have h31 : t.val % 32 = 31 := (flush2_4 t).mp hf
  show (cfg2.win 4).cut (grid2.coords t) ((dat2 V c).after 4 t) = _
  rw [after2_4]
  funext j
  obtain ⟨p, q, rfl⟩ : ∃ (p : Fin 512) (q : Fin 1), j = ix2 p q := ⟨j 0, j 1, eq_ix2 j⟩
  obtain rfl : q = 0 := Subsingleton.elim _ _
  rw [read2_4_apply, emb2_4, cut2_4_apply, acc2_apply]
  exact (runMin_congr _ _ 31 _ (by norm_num) h31).trans (Spec.runMin_last _)

/-- An index of the output array is in point `t`'s block iff each coordinate is in the block's range on its axis. -/
theorem mem_blk2_4 (t : Fin cfg2.N) (i : S8192x1.Idx) :
    i ∈ ((cfg2.win 4).blk t).view.set ↔ ∀ a : Fin 2, win2_4.index t a * S512x1.size a ≤ (i a).val ∧ (i a).val < win2_4.index t a * S512x1.size a + S512x1.size a := by
  show i ∈ ((View.whole main_v3).slice (win2_4.rect t)).set ↔ _
  rw [View.set_slice_whole, Rect.mem_set_unit]
  exact Iff.rfl

/-- Row `r` of the output array is in the block of the point at the last column tile of row tile `r / 512`, and that
    point writes its block back. -/
theorem covered2_4 (i : S8192x1.Idx) : ∃ t : Fin cfg2.N, (cfg2.win 4).flush t = true ∧ i ∈ ((cfg2.win 4).blk t).view.set := by
  have hi0 : (i 0).val < 8192 := (i 0).isLt
  have hi1 : (i 1).val < 1 := (i 1).isLt
  have hlt : 32 * ((i 0).val / 512) + 31 < cfg2.N := by show 32 * ((i 0).val / 512) + 31 < grid2.N; rw [N_2]; omega
  refine ⟨⟨32 * ((i 0).val / 512) + 31, hlt⟩, (flush2_4 _).mpr (by show (32 * ((i 0).val / 512) + 31) % 32 = 31; omega), ?_⟩
  rw [mem_blk2_4]
  obtain ⟨-, e0, e1⟩ := idx_facts2_4 ⟨32 * ((i 0).val / 512) + 31, hlt⟩
  intro a
  match a with
  | ⟨0, _⟩ =>
    show win2_4.index _ (0 : Fin 2) * 512 ≤ (i 0).val ∧ (i 0).val < win2_4.index _ (0 : Fin 2) * 512 + 512
    rw [e0]
    show (32 * ((i 0).val / 512) + 31) / 32 * 512 ≤ (i 0).val ∧ (i 0).val < (32 * ((i 0).val / 512) + 31) / 32 * 512 + 512
    omega
  | ⟨1, _⟩ =>
    show win2_4.index _ (1 : Fin 2) * 1 ≤ (i 1).val ∧ (i 1).val < win2_4.index _ (1 : Fin 2) * 1 + 1
    rw [e1]; omega

/-- After the region the output array holds, in row `r`, the least distance of row `r` of the first normalised array
    to any row of the second, raised by one on the leading diagonal. -/
theorem final2_4 (c : Dev nD) : (Hand.dat2 V c).arrAt 4 cfg2.N = fun i =>
    Finset.univ.inf fun q : Fin 32768 =>
      Spec.distAt (V c main_v0_0) (fun r => V c main_v0_1 (ix2 r 0)) (V c main_v1_0) (fun q => V c main_v2 (ix2 0 q)) (i 0) q :=
  (Hand.dat2 V c).arrAt_eq_of_cover 4 (G2 V c) (flushed2_4_eq V c) covered2_4

end Cert.KernelIdeal.Val2

end
-- ==== Proof.KI.Val01.lean ====
/- Regions 0 and 1 of @main at the ideal instance, as values. Each region divides every row of its argument by the
   larger of the row's Euclidean norm and a small floor, block of 1024 rows by block, and writes beside it the column of
   the sums of squares of the rows it has just made. Here: the body's payloads read entry by entry as one function of the
   input block (the lane sum is a sum over the row, the column and its spreading over the lanes read the row's entry, the
   narrowing is the identity on extended reals); row `p` of the block at point `t` is row `1024 t + p` of the array,
   for the input and for both outputs; so what each point writes back is its block of ONE function of the whole
   argument (`Spec.nrm`, and the row sums of squares of `Spec.nrm`); the blocks cover the arrays, so after the region
   the arrays are those functions. -/
import proofs.«110562_j74887049773256_1_alg».proof.Proof.KI.R0
import proofs.«110562_j74887049773256_1_alg».proof.Proof.KI.R1
import proofs.«110562_j74887049773256_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val01

open Cert.KernelIdeal Cert.KernelIdeal.Gen
open Idealize.ShloMosaic Idealize.ShloMosaic.TcCoe Idealize.ShloMosaic.ValueIdx
open Idealize.SL.Sem
open Idealize.ShloMosaic.Pipeline (Dat)

/-! ## The block function: what the body makes of a block of 1024 rows, entry by entry -/

/-- A square root at an index is the root of the element. -/
theorem sqrt_apply {s : Shape} {φ : FTy} (a : FVec Ideal s φ) (i : s.Idx) : sqrt a i = Ideal.sqrt (a i) := rfl

/-- The sum over the lanes of a block, at row `p`: the sum of the row's entries. -/
theorem laneSum_apply (v : FVec Ideal S1024x1024 .f32) (p : Fin 1024) :
    multiReduction .add [1] S1024 v 0x00000000#32 reduces_S1024x1024_S1024 (.inl rfl) rfl (ix1 p) = ∑ k : Fin 1024, v (ix2 p k) := by
  refine (Ideal.multiReduction_add_single v _ reduces_S1024x1024_S1024 (.inl rfl) rfl (ix1 p)).trans ?_
  refine Finset.sum_congr rfl fun k _ => congrArg v ?_
  funext a
  match a with
  | ⟨0, _⟩ => rfl
  | ⟨1, _⟩ => rfl

/-- A vector of 1024 entries viewed as a column reads, in row `p`, its entry `p`. -/
theorem column_apply {α : Type} (v : S1024.Idx → α) (p : Fin 1024) (q : Fin 1) :
    shapeCast S1024x1 v shapeCasts_S1024_S1024x1 (ix2 p q) = v (ix1 p) :=
  shapeCast_apply v shapeCasts_S1024_S1024x1 (ix2 p q) (ix1 p) (by
    rw [Shape.rowMajor_val_one, Shape.rowMajor_val_two]
    show p.val = p.val * 1 + q.val
    have := q.isLt; omega)

/-- A column spread over the 1024 lanes reads, at `(p, k)`, the column's entry in row `p`. -/
theorem spread_apply {α : Type} (v : S1024x1.Idx → α) (p k : Fin 1024) :
    broadcastTo S1024x1024 v broadcasts_S1024x1_S1024x1024 (ix2 p k) = v (ix2 p (0 : Fin 1)) := by
  refine broadcastTo_apply v broadcasts_S1024x1_S1024x1024 (ix2 p k) (ix2 p (0 : Fin 1)) fun ax => ?_
  match ax with
  | ⟨0, _⟩ => rfl
  | ⟨1, _⟩ => rfl

/-- Entry `(p, k)` of a block over the larger of the norm of the block's row `p` and the floor. -/
def blkNrm (x0 : Vec Ideal S1024x1024 .f32) (p k : Fin 1024) : EReal :=
  Ideal.div (x0 (ix2 p k)) (max (Ideal.sqrt (∑ k' : Fin 1024, x0 (ix2 p k') * x0 (ix2 p k'))) Spec.floorW)

/-- The quotient the body of region 0 forms, at `(p, k)`. -/
theorem pay0_1_apply (x0 : Vec Ideal S1024x1024 .f32) (p k : Fin 1024) :
    k0_pay1 (F := Ideal) x0 (ix2 p k) = blkNrm x0 p k := by
  unfold k0_pay1
  rw [divf_apply, spread_apply, maximumf_apply, sqrt_apply, column_apply, laneSum_apply, broadcast_apply]
  rfl

/-- What the body of region 0 stores as the normalised block, at `(p, k)`: the narrowing is the identity on extended reals. -/
theorem pay0_2_apply (x0 : Vec Ideal S1024x1024 .f32) (p k : Fin 1024) :
    k0_pay2 (F := Ideal) x0 (ix2 p k) = blkNrm x0 p k := by
  unfold k0_pay2
  rw [truncf_apply, pay0_1_apply]

/-- What the body of region 0 stores as the column, in row `p`: the sum of the squares of the normalised row. -/
theorem pay0_3_apply (x0 : Vec Ideal S1024x1024 .f32) (p : Fin 1024) (q : Fin 1) :
    k0_pay3 (F := Ideal) x0 (ix2 p q) = ∑ k : Fin 1024, blkNrm x0 p k * blkNrm x0 p k := by
  unfold k0_pay3
  rw [column_apply, laneSum_apply]
  refine Finset.sum_congr rfl fun k _ => ?_
  rw [mulf_apply, pay0_1_apply]

/-- Region 1 runs the same body: its payloads are region 0's. -/
theorem pay1_1_eq : k1_pay1 (F := Ideal) = k0_pay1 (F := Ideal) := rfl
theorem pay1_2_eq : k1_pay2 (F := Ideal) = k0_pay2 (F := Ideal) := rfl
theorem pay1_3_eq : k1_pay3 (F := Ideal) = k0_pay3 (F := Ideal) := rfl

theorem pay1_2_apply (x0 : Vec Ideal S1024x1024 .f32) (p k : Fin 1024) :
    k1_pay2 (F := Ideal) x0 (ix2 p k) = blkNrm x0 p k := by
  rw [pay1_2_eq, pay0_2_apply]

theorem pay1_3_apply (x0 : Vec Ideal S1024x1024 .f32) (p : Fin 1024) (q : Fin 1) :
    k1_pay3 (F := Ideal) x0 (ix2 p q) = ∑ k : Fin 1024, blkNrm x0 p k * blkNrm x0 p k := by
  rw [pay1_3_eq, pay0_3_apply]

/-! ## Region 0: the first argument, 8 blocks of 1024 rows -/

variable (V : (c : Dev nD) → (b : Ref sig .tc) → Buf (Elt Ideal) ((c : Thread nD τ).loc b))

theorem zeroOff : (![0, 0] : Fin 2 → Nat) = fun _ => 0 := funext fun a => by fin_cases a <;> rfl

/-- The printed index maps of region 0, decided over its 8 points: every window's block at point `t` is block row `t`. -/
theorem idx_facts0 : ∀ t : Fin cfg0.N, t.val < 8
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `p` of the input block at point `t` is row `1024 t + p` of the argument. -/
theorem iblk0_apply (c : Dev nD) (t : Fin cfg0.N) (p k : Fin 1024) (r : Fin 8192) (hr : r.val = t.val * 1024 + p.val) :
    (Hand.iblk0 V c 0 t : Vec Ideal S1024x1024 .f32) (ix2 p k) = (V c main_arg0 : S8192x1024.Idx → EReal) (ix2 r k) := by
  obtain ⟨-, e0, e1, -⟩ := idx_facts0 t
  unfold Hand.iblk0
  rw [View.read_apply]
  show V c main_arg0 _ = V c main_arg0 _
  congr 1
  funext a
  apply Fin.ext
  match a with
  | ⟨0, _⟩ => show win0_0.index t (0 : Fin 2) * 1024 + 1 * p.val = r.val; omega
  | ⟨1, _⟩ => show win0_0.index t (1 : Fin 2) * 1024 + 1 * k.val = k.val; omega

/-- So the block function of the input block at point `t` is the row-normalised argument in those rows. -/
theorem blkNrm_iblk0 (c : Dev nD) (t : Fin cfg0.N) (p k : Fin 1024) (r : Fin 8192) (hr : r.val = t.val * 1024 + p.val) :
    blkNrm (Hand.iblk0 V c 0 t) p k = Spec.nrmAt (V c main_arg0) r k := by
  unfold blkNrm Spec.nrmAt Spec.rowSq
  rw [iblk0_apply V c t p k r hr]
  congr 3
  exact Finset.sum_congr rfl fun k' _ => by rw [iblk0_apply V c t p k' r hr]

/-- Index `(p, k)` of the block of window 1 at point `t` lies at `(1024 t + p, k)` of its array. -/
theorem emb0_1 (t : Fin cfg0.N) (p k : Fin 1024) (r : Fin 8192) (hr : r.val = t.val * 1024 + p.val) :
    ((cfg0.win 1).blk t).view.emb (ix2 p k) = (ix2 r k : S8192x1024.Idx) := by
  obtain ⟨-, -, -, e0, e1, -⟩ := idx_facts0 t
  funext a
  apply Fin.ext
  match a with
  | ⟨0, _⟩ => show win0_1.index t (0 : Fin 2) * 1024 + 1 * p.val = r.val; omega
  | ⟨1, _⟩ => show win0_1.index t (1 : Fin 2) * 1024 + 1 * k.val = k.val; omega

/-- Index `(p, q)` of the block of window 2 at point `t` lies at `(1024 t + p, q)` of its array. -/
theorem emb0_2 (t : Fin cfg0.N) (p : Fin 1024) (q : Fin 1) (r : Fin 8192) (hr : r.val = t.val * 1024 + p.val) :
    ((cfg0.win 2).blk t).view.emb (ix2 p q) = (ix2 r q : S8192x1.Idx) := by
  obtain ⟨-, -, -, -, -, e0, e1⟩ := idx_facts0 t
  funext a
  apply Fin.ext
  match a with
  | ⟨0, _⟩ => show win0_2.index t (0 : Fin 2) * 1024 + 1 * p.val = r.val; omega
  | ⟨1, _⟩ => show win0_2.index t (1 : Fin 2) * 1 + 1 * q.val = q.val; omega

/-- What the body leaves in the normalised block at point `t`, at a block index, is the row-normalised argument there. -/
theorem out0_1_apply (c : Dev nD) (t : Fin cfg0.N) (j : S1024x1024.Idx) :
    k0_pay2 (F := Ideal) (Hand.iblk0 V c 0 t) j = Spec.nrm (V c main_arg0) (((cfg0.win 1).blk t).view.emb j) := by
  obtain ⟨p, k, rfl⟩ : ∃ (p : Fin 1024) (k : Fin 1024), j = ix2 p k := ⟨j 0, j 1, eq_ix2 j⟩
  have ht := (idx_facts0 t).1
  have hr : (⟨t.val * 1024 + p.val, by have := p.isLt; omega⟩ : Fin 8192).val = t.val * 1024 + p.val := rfl
  rw [emb0_1 t p k _ hr, Spec.nrm_ix2, pay0_2_apply, blkNrm_iblk0 V c t p k _ hr]

/-- What point `t` writes back through window 1 is its block of the row-normalised argument. -/
theorem flushed0_1_eq (c : Dev nD) (t : Fin cfg0.N) :
    (Hand.dat0 V c).flushed 1 t = ((cfg0.win 1).blk t).view.read (Elt Ideal) (Spec.nrm (V c main_arg0)) := by
  show (cfg0.win 1).cut (grid0.coords t) ((Hand.dat0 V c).after 1 t) = _
  rw [Hand.after0_1]
  unfold Hand.out0_1
  rw [View.canon_unit_zero zeroOff, View.ld_unit_zero (S := S1024x1024) zeroOff]
  funext j
  exact out0_1_apply V c t j

/-- What the body leaves in the column block at point `t`, at a block index, is the sum of the squares of that row of
    the row-normalised argument. -/
theorem out0_2_apply (c : Dev nD) (t : Fin cfg0.N) (j : S1024x1.Idx) :
    k0_pay3 (F := Ideal) (Hand.iblk0 V c 0 t) j
      = (fun i : S8192x1.Idx => Spec.rowSq (Spec.nrm (V c main_arg0)) (i 0)) (((cfg0.win 2).blk t).view.emb j) := by
  obtain ⟨p, q, rfl⟩ : ∃ (p : Fin 1024) (q : Fin 1), j = ix2 p q := ⟨j 0, j 1, eq_ix2 j⟩
  have ht := (idx_facts0 t).1
  have hr : (⟨t.val * 1024 + p.val, by have := p.isLt; omega⟩ : Fin 8192).val = t.val * 1024 + p.val := rfl
  rw [emb0_2 t p q _ hr, pay0_3_apply]
  show _ = Spec.rowSq (Spec.nrm (V c main_arg0)) _
  unfold Spec.rowSq
  exact Finset.sum_congr rfl fun k _ => by rw [Spec.nrm_ix2, blkNrm_iblk0 V c t p k _ hr]

/-- What point `t` writes back through window 2 is its block of that column. -/
theorem flushed0_2_eq (c : Dev nD) (t : Fin cfg0.N) :
    (Hand.dat0 V c).flushed 2 t
      = ((cfg0.win 2).blk t).view.read (Elt Ideal) (fun i : S8192x1.Idx => Spec.rowSq (Spec.nrm (V c main_arg0)) (i 0)) := by
  show (cfg0.win 2).cut (grid0.coords t) ((Hand.dat0 V c).after 2 t) = _
  rw [Hand.after0_2]
  unfold Hand.out0_2
  rw [View.canon_unit_zero zeroOff, View.ld_unit_zero (S := S1024x1024) zeroOff]
  funext j
  exact out0_2_apply V c t j

/-- An index of window 1's array is in point `t`'s block iff each coordinate is in the block's range on its axis. -/
theorem mem_blk0_1 (t : Fin cfg0.N) (i : S8192x1024.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v0_0).slice (win0_1.rect t)).set ↔ _
  rw [View.set_slice_whole, Rect.mem_set_unit]
  exact Iff.rfl

/-- The same for window 2. -/
theorem mem_blk0_2 (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0_1).slice (win0_2.rect t)).set ↔ _
  rw [View.set_slice_whole, Rect.mem_set_unit]
  exact Iff.rfl

/-- Row `r` of window 1's array is in the block of point `r / 1024`. -/
theorem covered0_1 (i : S8192x1024.Idx) : ∃ t : Fin cfg0.N, (cfg0.win 1).flush t = true ∧ i ∈ ((cfg0.win 1).blk t).view.set := by
  have hi0 : (i 0).val < 8192 := (i 0).isLt
  have hi1 : (i 1).val < 1024 := (i 1).isLt
  refine ⟨⟨(i 0).val / 1024, by show (i 0).val / 1024 < 8; omega⟩, flush0_1 _, ?_⟩
  rw [mem_blk0_1]
  obtain ⟨-, -, -, e0, e1, -⟩ := idx_facts0 ⟨(i 0).val / 1024, by show (i 0).val / 1024 < 8; omega⟩
  intro a
  match a with
  | ⟨0, _⟩ => show win0_1.index _ (0 : Fin 2) * 1024 ≤ (i 0).val ∧ (i 0).val < win0_1.index _ (0 : Fin 2) * 1024 + 1024; rw [e0]; show (i 0).val / 1024 * 1024 ≤ (i 0).val ∧ (i 0).val < (i 0).val / 1024 * 1024 + 1024; omega
  | ⟨1, _⟩ => show win0_1.index _ (1 : Fin 2) * 1024 ≤ (i 1).val ∧ (i 1).val < win0_1.index _ (1 : Fin 2) * 1024 + 1024; rw [e1]; omega

/-- Row `r` of window 2's array is in the block of point `r / 1024`. -/
theorem covered0_2 (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  refine ⟨⟨(i 0).val / 1024, by show (i 0).val / 1024 < 8; omega⟩, flush0_2 _, ?_⟩
  rw [mem_blk0_2]
  obtain ⟨-, -, -, -, -, e0, e1⟩ := idx_facts0 ⟨(i 0).val / 1024, by show (i 0).val / 1024 < 8; omega⟩
  intro a
  match a with
  | ⟨0, _⟩ => show win0_2.index _ (0 : Fin 2) * 1024 ≤ (i 0).val ∧ (i 0).val < win0_2.index _ (0 : Fin 2) * 1024 + 1024; rw [e0]; show (i 0).val / 1024 * 1024 ≤ (i 0).val ∧ (i 0).val < (i 0).val / 1024 * 1024 + 1024; omega
  | ⟨1, _⟩ => show win0_2.index _ (1 : Fin 2) * 1 ≤ (i 1).val ∧ (i 1).val < win0_2.index _ (1 : Fin 2) * 1 + 1; rw [e1]; omega

/-- After region 0 its first result holds the row-normalised first argument. -/
theorem final0_1 (c : Dev nD) : (Hand.dat0 V c).arrAt 1 cfg0.N = Spec.nrm (V c main_arg0) :=
  (Hand.dat0 V c).arrAt_eq_of_cover 1 _ (fun t _ => flushed0_1_eq V c t) covered0_1

/-- After region 0 its second result holds, in row `r`, the sum of the squares of row `r` of the row-normalised first argument. -/
theorem final0_2 (c : Dev nD) : (Hand.dat0 V c).arrAt 2 cfg0.N = fun i => Spec.rowSq (Spec.nrm (V c main_arg0)) (i 0) :=
  (Hand.dat0 V c).arrAt_eq_of_cover 2 _ (fun t _ => flushed0_2_eq V c t) covered0_2

/-! ## Region 1: the second argument, 32 blocks of 1024 rows -/

/-- The printed index maps of region 1, decided over its 32 points: every window's block at point `t` is block row `t`. -/
theorem idx_facts1 : ∀ t : Fin cfg1.N, t.val < 32
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row `p` of the input block at point `t` is row `1024 t + p` of the argument. -/
theorem iblk1_apply (c : Dev nD) (t : Fin cfg1.N) (p k : Fin 1024) (r : Fin 32768) (hr : r.val = t.val * 1024 + p.val) :
    (Hand.iblk1 V c 0 t : Vec Ideal S1024x1024 .f32) (ix2 p k) = (V c main_arg1 : S32768x1024.Idx → EReal) (ix2 r k) := by
  obtain ⟨-, e0, e1, -⟩ := idx_facts1 t
  unfold Hand.iblk1
  rw [View.read_apply]
  show V c main_arg1 _ = V c main_arg1 _
  congr 1
  funext a
  apply Fin.ext
  match a with
  | ⟨0, _⟩ => show win1_0.index t (0 : Fin 2) * 1024 + 1 * p.val = r.val; omega
  | ⟨1, _⟩ => show win1_0.index t (1 : Fin 2) * 1024 + 1 * k.val = k.val; omega

/-- So the block function of the input block at point `t` is the row-normalised argument in those rows. -/
theorem blkNrm_iblk1 (c : Dev nD) (t : Fin cfg1.N) (p k : Fin 1024) (r : Fin 32768) (hr : r.val = t.val * 1024 + p.val) :
    blkNrm (Hand.iblk1 V c 0 t) p k = Spec.nrmAt (V c main_arg1) r k := by
  unfold blkNrm Spec.nrmAt Spec.rowSq
  rw [iblk1_apply V c t p k r hr]
  congr 3
  exact Finset.sum_congr rfl fun k' _ => by rw [iblk1_apply V c t p k' r hr]

/-- Index `(p, k)` of the block of window 1 at point `t` lies at `(1024 t + p, k)` of its array. -/
theorem emb1_1 (t : Fin cfg1.N) (p k : Fin 1024) (r : Fin 32768) (hr : r.val = t.val * 1024 + p.val) :
    ((cfg1.win 1).blk t).view.emb (ix2 p k) = (ix2 r k : S32768x1024.Idx) := by
  obtain ⟨-, -, -, e0, e1, -⟩ := idx_facts1 t
  funext a
  apply Fin.ext
  match a with
  | ⟨0, _⟩ => show win1_1.index t (0 : Fin 2) * 1024 + 1 * p.val = r.val; omega
  | ⟨1, _⟩ => show win1_1.index t (1 : Fin 2) * 1024 + 1 * k.val = k.val; omega

/-- Index `(p, q)` of the block of window 2 at point `t` lies at `(1024 t + p, q)` of its array. -/
theorem emb1_2 (t : Fin cfg1.N) (p : Fin 1024) (q : Fin 1) (r : Fin 32768) (hr : r.val = t.val * 1024 + p.val) :
    ((cfg1.win 2).blk t).view.emb (ix2 p q) = (ix2 r q : S32768x1.Idx) := by
  obtain ⟨-, -, -, -, -, e0, e1⟩ := idx_facts1 t
  funext a
  apply Fin.ext
  match a with
  | ⟨0, _⟩ => show win1_2.index t (0 : Fin 2) * 1024 + 1 * p.val = r.val; omega
  | ⟨1, _⟩ => show win1_2.index t (1 : Fin 2) * 1 + 1 * q.val = q.val; omega

/-- What the body leaves in the normalised block at point `t`, at a block index, is the row-normalised argument there. -/
theorem out1_1_apply (c : Dev nD) (t : Fin cfg1.N) (j : S1024x1024.Idx) :
    k1_pay2 (F := Ideal) (Hand.iblk1 V c 0 t) j = Spec.nrm (V c main_arg1) (((cfg1.win 1).blk t).view.emb j) := by
  obtain ⟨p, k, rfl⟩ : ∃ (p : Fin 1024) (k : Fin 1024), j = ix2 p k := ⟨j 0, j 1, eq_ix2 j⟩
  have ht := (idx_facts1 t).1
  have hr : (⟨t.val * 1024 + p.val, by have := p.isLt; omega⟩ : Fin 32768).val = t.val * 1024 + p.val := rfl
  rw [emb1_1 t p k _ hr, Spec.nrm_ix2, pay1_2_apply, blkNrm_iblk1 V c t p k _ hr]

/-- What point `t` writes back through window 1 is its block of the row-normalised argument. -/
theorem flushed1_1_eq (c : Dev nD) (t : Fin cfg1.N) :
    (Hand.dat1 V c).flushed 1 t = ((cfg1.win 1).blk t).view.read (Elt Ideal) (Spec.nrm (V c main_arg1)) := by
  show (cfg1.win 1).cut (grid1.coords t) ((Hand.dat1 V c).after 1 t) = _
  rw [Hand.after1_1]
  unfold Hand.out1_1
  rw [View.canon_unit_zero zeroOff, View.ld_unit_zero (S := S1024x1024) zeroOff]
  funext j
  exact out1_1_apply V c t j

/-- What the body leaves in the column block at point `t`, at a block index, is the sum of the squares of that row of
    the row-normalised argument. -/
theorem out1_2_apply (c : Dev nD) (t : Fin cfg1.N) (j : S1024x1.Idx) :
    k1_pay3 (F := Ideal) (Hand.iblk1 V c 0 t) j
      = (fun i : S32768x1.Idx => Spec.rowSq (Spec.nrm (V c main_arg1)) (i 0)) (((cfg1.win 2).blk t).view.emb j) := by
  obtain ⟨p, q, rfl⟩ : ∃ (p : Fin 1024) (q : Fin 1), j = ix2 p q := ⟨j 0, j 1, eq_ix2 j⟩
  have ht := (idx_facts1 t).1
  have hr : (⟨t.val * 1024 + p.val, by have := p.isLt; omega⟩ : Fin 32768).val = t.val * 1024 + p.val := rfl
  rw [emb1_2 t p q _ hr, pay1_3_apply]
  show _ = Spec.rowSq (Spec.nrm (V c main_arg1)) _
  unfold Spec.rowSq
  exact Finset.sum_congr rfl fun k _ => by rw [Spec.nrm_ix2, blkNrm_iblk1 V c t p k _ hr]

/-- What point `t` writes back through window 2 is its block of that column. -/
theorem flushed1_2_eq (c : Dev nD) (t : Fin cfg1.N) :
    (Hand.dat1 V c).flushed 2 t
      = ((cfg1.win 2).blk t).view.read (Elt Ideal) (fun i : S32768x1.Idx => Spec.rowSq (Spec.nrm (V c main_arg1)) (i 0)) := by
  show (cfg1.win 2).cut (grid1.coords t) ((Hand.dat1 V c).after 2 t) = _
  rw [Hand.after1_2]
  unfold Hand.out1_2
  rw [View.canon_unit_zero zeroOff, View.ld_unit_zero (S := S1024x1024) zeroOff]
  funext j
  exact out1_2_apply V c t j

/-- An index of window 1's array is in point `t`'s block iff each coordinate is in the block's range on its axis. -/
theorem mem_blk1_1 (t : Fin cfg1.N) (i : S32768x1024.Idx) :
    i ∈ ((cfg1.win 1).blk t).view.set ↔ ∀ a : Fin 2, win1_1.index t a * S1024x1024.size a ≤ (i a).val ∧ (i a).val < win1_1.index t a * S1024x1024.size a + S1024x1024.size a := by
  show i ∈ ((View.whole main_v1_0).slice (win1_1.rect t)).set ↔ _
  rw [View.set_slice_whole, Rect.mem_set_unit]
  exact Iff.rfl

/-- The same for window 2. -/
theorem mem_blk1_2 (t : Fin cfg1.N) (i : S32768x1.Idx) :
    i ∈ ((cfg1.win 2).blk t).view.set ↔ ∀ a : Fin 2, win1_2.index t a * S1024x1.size a ≤ (i a).val ∧ (i a).val < win1_2.index t a * S1024x1.size a + S1024x1.size a := by
  show i ∈ ((View.whole main_v1_1).slice (win1_2.rect t)).set ↔ _
  rw [View.set_slice_whole, Rect.mem_set_unit]
  exact Iff.rfl

/-- Row `r` of window 1's array is in the block of point `r / 1024`. -/
theorem covered1_1 (i : S32768x1024.Idx) : ∃ t : Fin cfg1.N, (cfg1.win 1).flush t = true ∧ i ∈ ((cfg1.win 1).blk t).view.set := by
  have hi0 : (i 0).val < 32768 := (i 0).isLt
  have hi1 : (i 1).val < 1024 := (i 1).isLt
  refine ⟨⟨(i 0).val / 1024, by show (i 0).val / 1024 < 32; omega⟩, flush1_1 _, ?_⟩
  rw [mem_blk1_1]
  obtain ⟨-, -, -, e0, e1, -⟩ := idx_facts1 ⟨(i 0).val / 1024, by show (i 0).val / 1024 < 32; omega⟩
  intro a
  match a with
  | ⟨0, _⟩ => show win1_1.index _ (0 : Fin 2) * 1024 ≤ (i 0).val ∧ (i 0).val < win1_1.index _ (0 : Fin 2) * 1024 + 1024; rw [e0]; show (i 0).val / 1024 * 1024 ≤ (i 0).val ∧ (i 0).val < (i 0).val / 1024 * 1024 + 1024; omega
  | ⟨1, _⟩ => show win1_1.index _ (1 : Fin 2) * 1024 ≤ (i 1).val ∧ (i 1).val < win1_1.index _ (1 : Fin 2) * 1024 + 1024; rw [e1]; omega

/-- Row `r` of window 2's array is in the block of point `r / 1024`. -/
theorem covered1_2 (i : S32768x1.Idx) : ∃ t : Fin cfg1.N, (cfg1.win 2).flush t = true ∧ i ∈ ((cfg1.win 2).blk t).view.set := by
  have hi0 : (i 0).val < 32768 := (i 0).isLt
  have hi1 : (i 1).val < 1 := (i 1).isLt
  refine ⟨⟨(i 0).val / 1024, by show (i 0).val / 1024 < 32; omega⟩, flush1_2 _, ?_⟩
  rw [mem_blk1_2]
  obtain ⟨-, -, -, -, -, e0, e1⟩ := idx_facts1 ⟨(i 0).val / 1024, by show (i 0).val / 1024 < 32; omega⟩
  intro a
  match a with
  | ⟨0, _⟩ => show win1_2.index _ (0 : Fin 2) * 1024 ≤ (i 0).val ∧ (i 0).val < win1_2.index _ (0 : Fin 2) * 1024 + 1024; rw [e0]; show (i 0).val / 1024 * 1024 ≤ (i 0).val ∧ (i 0).val < (i 0).val / 1024 * 1024 + 1024; omega
  | ⟨1, _⟩ => show win1_2.index _ (1 : Fin 2) * 1 ≤ (i 1).val ∧ (i 1).val < win1_2.index _ (1 : Fin 2) * 1 + 1; rw [e1]; omega

/-- After region 1 its first result holds the row-normalised second argument. -/
theorem final1_1 (c : Dev nD) : (Hand.dat1 V c).arrAt 1 cfg1.N = Spec.nrm (V c main_arg1) :=
  (Hand.dat1 V c).arrAt_eq_of_cover 1 _ (fun t _ => flushed1_1_eq V c t) covered1_1

/-- After region 1 its second result holds, in row `r`, the sum of the squares of row `r` of the row-normalised second argument. -/
theorem final1_2 (c : Dev nD) : (Hand.dat1 V c).arrAt 2 cfg1.N = fun i => Spec.rowSq (Spec.nrm (V c main_arg1)) (i 0) :=
  (Hand.dat1 V c).arrAt_eq_of_cover 2 _ (fun t _ => flushed1_2_eq V c t) covered1_2

end Cert.KernelIdeal.Val01

end
-- ==== Proof.KI.Kmin.lean ====
/- The kernel program's column of minima, flattened, is the vector of least distances between the normalised rows of
   the two inputs: the nearest-row region's final array is the least, over all rows of its third array, of the distance
   built from its four input arrays; those arrays are the normalised inputs and their rows' squared norms as the two
   normalising regions left them (the second column of squared norms reshaped into a row, read at (0, q) where the
   column was read at (q, 0)). -/
import proofs.«110562_j74887049773256_1_alg».proof.Proof.KI.Mid
import proofs.«110562_j74887049773256_1_alg».proof.Proof.KI.Val2
import proofs.«110562_j74887049773256_1_alg».proof.Proof.KI.Val01
import proofs.«110562_j74887049773256_1_alg».proof.Proof.Spec
import Idealize.ShloMosaic.Lib.Pipeline.Value
import Idealize.ShloMosaic.Lib.ValueIdx

set_option maxRecDepth 16384

noncomputable section

namespace Cert.KernelIdeal.Kmin

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

theorem kernel_min (c : Dev nD) :
    (shapeCast S8192 ((dat2 (V3 m ρ) c).arrAt 4 cfg2.N : Vec Ideal S8192x1 .f32) shapeCasts_S8192x1_S8192 : Vec Ideal S8192 .f32)
      = fun i => Spec.minDist (m ((c.tc : Thread nD τ).loc main_arg0)) (m ((c.tc : Thread nD τ).loc main_arg1)) (i 0) := by
  funext i
  obtain ⟨r, rfl⟩ : ∃ r : Fin 8192, i = ix1 r := ⟨i 0, eq_ix1 i⟩
  refine (shapeCast_apply _ shapeCasts_S8192x1_S8192 (ix1 r) (ix2 r 0) ?_).trans ?_
  · simp only [Shape.rowMajor_val_one, Shape.rowMajor_val_two]
    show r.val * 1 + (0 : Fin 1).val = r.val
    simp
  rw [Val2.final2_4 (V3 m ρ) c]
  show (Finset.univ.inf fun q : Fin 32768 => _) = Spec.minDist _ _ r
  unfold Spec.minDist Spec.D
  refine Finset.inf_congr rfl fun q _ => ?_
  have e00 : V3 m ρ c main_v0_0 = Spec.nrm (m ((c.tc : Thread nD τ).loc main_arg0)) :=
    (V3_main_v0_0 m ρ c).trans (Val01.final0_1 (V0 m ρ) c)
  have e01 : V3 m ρ c main_v0_1 = fun i => Spec.rowSq (Spec.nrm (m ((c.tc : Thread nD τ).loc main_arg0))) (i 0) :=
    (V3_main_v0_1 m ρ c).trans (Val01.final0_2 (V0 m ρ) c)
  have e10 : V3 m ρ c main_v1_0 = Spec.nrm (m ((c.tc : Thread nD τ).loc main_arg1)) := by
    rw [V3_main_v1_0, Val01.final1_1, V1_main_arg1]
  have e11 : (dat1 (V1 m ρ) c).arrAt 2 cfg1.N = fun i => Spec.rowSq (Spec.nrm (m ((c.tc : Thread nD τ).loc main_arg1))) (i 0) := by
    rw [Val01.final1_2, V1_main_arg1]
  have e2 : ∀ q' : Fin 32768, V3 m ρ c main_v2 (ix2 0 q') = Spec.rowSq (Spec.nrm (m ((c.tc : Thread nD τ).loc main_arg1))) q' := by
    intro q'
    rw [V3_main_v2, e11]
    refine (shapeCast_apply _ shapeCasts_S32768x1_S1x32768 (ix2 0 q') (ix2 q' 0) ?_).trans rfl
    simp only [Shape.rowMajor_val_two]
    show q'.val * 1 + (0 : Fin 1).val = (0 : Fin 1).val * 32768 + q'.val
    simp
  rw [e00, e01, e10]
  simp only [e2]
  rfl

end Cert.KernelIdeal.Kmin

end
-- ==== Proof.LibPointScatter.lean ====
/-
  A scatter-add of single entries into a matrix, read at an index, on the extended reals.

  `x.at[i, j].add(v)` for a matrix `x : [N, M]`, a table of index pairs `idx : [R, 2]` and one value per pair `v : [R]`
  lowers to a scatter with no update window axes, inserted_window_dims [0, 1], scatter_dims_to_operand_dims [0, 1] and
  index_vector_dim 1: update `k` is added onto the entry at (idx[k, 0], idx[k, 1]), each component read as a signed
  integer and NOT clamped, and is dropped when that pair names no entry. At an entry (v, w) the result is therefore the
  operand's entry plus the sum of the updates whose pair, read signed, is (v, w).
-/
import Idealize.ShloMosaic.PureOps.Ideal
import Idealize.ShloMosaic.PureOps.Ideal.Laws
import Idealize.ShloMosaic.Lib.ValueIdx

noncomputable section

open scoped BigOperators

namespace Cert.LibPointScatter

open Idealize.ShloMosaic Idealize.ShloMosaic.ValueIdx

/-- A matrix, a vector and a table of index pairs, as the host operations see them. -/
abbrev Arr2 (N M : Nat) : Type := (⟨2, ![N, M]⟩ : Shape).Idx → EReal
abbrev Arr1 (R : Nat) : Type := (⟨1, ![R]⟩ : Shape).Idx → EReal
abbrev IdxPairs (R : Nat) : Type := (⟨2, ![R, 2]⟩ : Shape).Idx → BitVec 32

/-- The dimension numbers of an entry scatter into a matrix; their conditions `wf` are decided on literal shapes. -/
abbrev ptScatterDims (N M R : Nat) (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

/-- A sum over a vector's indices is the sum over its one coordinate. -/
theorem sum_idx1 {A : Type*} [AddCommMonoid A] {n : Nat} (f : (⟨1, ![n]⟩ : Shape).Idx → A) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-- On the row axis the window of update `k` starts at the first component of pair `k`, read signed. -/
theorem start_pt0 {N M R : Nat} (wf : ScatterDims.WF ⟨2, ![N, M]⟩ ⟨2, ![R, 2]⟩ ⟨1, ![R]⟩ [] [0, 1] [0, 1] 1)
    (idx : IdxPairs R) (k : Fin R) :
    (ptScatterDims N M R wf).start (ix1 k) idx 0 = (idx (ix2 k 0)).toInt := by
  unfold ScatterDims.start
  rw [dif_pos (show (0 : Fin 2) ∈ [(0 : Fin 2), 1] by decide)]
  have hsi : (ptScatterDims N M R wf).siIdx (ix1 k) ⟨List.idxOf (0 : Fin 2) (ptScatterDims N M R wf).scatterDimsToOperandDims,
      List.idxOf_lt_length_iff.2 (show (0 : Fin 2) ∈ [(0 : Fin 2), 1] by decide)⟩ = ix2 k 0 := by
    funext c; refine Fin.ext ?_
    match c with
    | ⟨0, _⟩ => rfl
    | ⟨1, _⟩ => rfl
  rw [hsi]

/-- On the column axis it starts at the second component of pair `k`, read signed. -/
theorem start_pt1 {N M R : Nat} (wf : ScatterDims.WF ⟨2, ![N, M]⟩ ⟨2, ![R, 2]⟩ ⟨1, ![R]⟩ [] [0, 1] [0, 1] 1)
    (idx : IdxPairs R) (k : Fin R) :
    (ptScatterDims N M R wf).start (ix1 k) idx 1 = (idx (ix2 k 1)).toInt := by
  unfold ScatterDims.start
  rw [dif_pos (show (1 : Fin 2) ∈ [(0 : Fin 2), 1] by decide)]
  have hsi : (ptScatterDims N M R wf).siIdx (ix1 k) ⟨List.idxOf (1 : Fin 2) (ptScatterDims N M R wf).scatterDimsToOperandDims,
      List.idxOf_lt_length_iff.2 (show (1 : Fin 2) ∈ [(0 : Fin 2), 1] by decide)⟩ = ix2 k 1 := by
    funext c; refine Fin.ext ?_
    match c with
    | ⟨0, _⟩ => rfl
    | ⟨1, _⟩ => rfl
  rw [hsi]

/-- An entry update has no window: both operand axes are inserted, so its window coordinate is zero on each. -/
theorem window_pt {N M R : Nat} (wf : ScatterDims.WF ⟨2, ![N, M]⟩ ⟨2, ![R, 2]⟩ ⟨1, ![R]⟩ [] [0, 1] [0, 1] 1)
    (k : Fin R) (a : Fin 2) : (ptScatterDims N M R wf).window (ix1 k) a = 0 := by
  unfold ScatterDims.window
  rw [dif_neg (show a ∉ (ptScatterDims N M R wf).sKept by
    have h : (ptScatterDims N M R wf).sKept = [] := rfl
    rw [h]; exact List.not_mem_nil)]

/-- Update `k` lands on the entry (v, w) exactly when pair `k`, read signed, is (v, w). -/
theorem resultIdx_pt {N M R : Nat} (wf : ScatterDims.WF ⟨2, ![N, M]⟩ ⟨2, ![R, 2]⟩ ⟨1, ![R]⟩ [] [0, 1] [0, 1] 1)
    (idx : IdxPairs R) (k : Fin R) (v : Fin N) (w : Fin M) :
    ((ptScatterDims N M R wf).resultIdx? (ix1 k) idx = some (ix2 v w))
      ↔ ((idx (ix2 k 0)).toInt = (v.val : Int) ∧ (idx (ix2 k 1)).toInt = (w.val : Int)) := by
  have hv : v.val < N := v.isLt
  have hw : w.val < M := w.isLt
  unfold ScatterDims.resultIdx?
  split
  · rename_i h
    rw [Option.some.injEq]
    constructor
    · intro hf
      have h0 : ((ptScatterDims N M R wf).start (ix1 k) idx 0
          + ((ptScatterDims N M R wf).window (ix1 k) 0 : Nat)).toNat = v.val := congrArg (fun f => (f 0).val) hf
      have h1 : ((ptScatterDims N M R wf).start (ix1 k) idx 1
          + ((ptScatterDims N M R wf).window (ix1 k) 1 : Nat)).toNat = w.val := congrArg (fun f => (f 1).val) hf
      have g0 := (h 0).1
      have g1 := (h 1).1
      simp only [start_pt0, start_pt1, window_pt] at h0 h1 g0 g1
      constructor
      · omega
      · omega
    · rintro ⟨h0, h1⟩
      funext a
      refine Fin.ext ?_
      match a with
      | ⟨0, _⟩ =>
        show ((ptScatterDims N M R wf).start (ix1 k) idx 0 + ((ptScatterDims N M R wf).window (ix1 k) 0 : Nat)).toNat = v.val
        rw [start_pt0, window_pt]
        omega
      | ⟨1, _⟩ =>
        show ((ptScatterDims N M R wf).start (ix1 k) idx 1 + ((ptScatterDims N M R wf).window (ix1 k) 1 : Nat)).toNat = w.val
        rw [start_pt1, window_pt]
        omega
  · rename_i h
    constructor
    · intro hf
      exact absurd hf (by simp)
    · rintro ⟨h0, h1⟩
      exfalso
      apply h
      intro a
      match a with
      | ⟨0, _⟩ =>
        show 0 ≤ (ptScatterDims N M R wf).start (ix1 k) idx 0 + ((ptScatterDims N M R wf).window (ix1 k) 0 : Nat)
          ∧ (ptScatterDims N M R wf).start (ix1 k) idx 0 + ((ptScatterDims N M R wf).window (ix1 k) 0 : Nat) < (N : Int)
        rw [start_pt0, window_pt]
        omega
      | ⟨1, _⟩ =>
        show 0 ≤ (ptScatterDims N M R wf).start (ix1 k) idx 1 + ((ptScatterDims N M R wf).window (ix1 k) 1 : Nat)
          ∧ (ptScatterDims N M R wf).start (ix1 k) idx 1 + ((ptScatterDims N M R wf).window (ix1 k) 1 : Nat) < (M : Int)
        rw [start_pt1, window_pt]
        omega

/-- THE ENTRY SCATTER-ADD READ AT AN INDEX: the operand's entry plus the sum of the updates whose index pair, read
    signed, is this entry. -/
theorem scatterAdd_pt_apply {N M R : Nat} (wf : ScatterDims.WF ⟨2, ![N, M]⟩ ⟨2, ![R, 2]⟩ ⟨1, ![R]⟩ [] [0, 1] [0, 1] 1)
    (x : Arr2 N M) (idx : IdxPairs R) (u : Arr1 R) (v : Fin N) (w : Fin M) :
    Host.scatterAdd (F := Ideal) (φ := .f32) (ptScatterDims N M R wf) x idx u (ix2 v w)
      = x (ix2 v w) + ∑ e : Fin R,
          if (idx (ix2 e 0)).toInt = (v.val : Int) ∧ (idx (ix2 e 1)).toInt = (w.val : Int) then u (ix1 e) else 0 := by
  show x (ix2 v w) + ∑ q ∈ Finset.univ.filter (fun q => (ptScatterDims N M R wf).resultIdx? q idx = some (ix2 v w)), u q
    = x (ix2 v w) + ∑ e : Fin R,
        if (idx (ix2 e 0)).toInt = (v.val : Int) ∧ (idx (ix2 e 1)).toInt = (w.val : Int) then u (ix1 e) else 0
  congr 1
  rw [Finset.sum_filter, sum_idx1]
  refine Finset.sum_congr rfl fun k _ => ?_
  simp only [resultIdx_pt wf idx k v w]

end Cert.LibPointScatter

end
-- ==== Proof.RefVal.lean ====
/-
  The reference program's row minimum, read as mathematics.

  The program divides each row of its two inputs by the larger of the row's Euclidean norm and a small floor, forms for
  every pair of a row `r` of the first and a row `q` of the second the root of their squared distance (the two squared
  norms less twice the inner product, clamped at zero), raises the entries on the leading diagonal by one through a
  scatter-add at the index pairs (k, k), and takes the least entry of each row from +∞. This module proves that the
  stage holding those row minima is, at row `r`, the infimum over all columns `q` of the distance `Spec.D X Y r q`.

  The steps, in order: the row sums of squares and the normalised entries of each input; the normalised rows' squared
  norms and inner products; the distance before the diagonal is raised; the table of index pairs, whose row `k` is
  the pair of words (k, k) because the wrap of a negative index leaves a word below 2³¹ alone; the scatter-add at an
  entry, where the updates landing on (r, q) are the single update `r` when `r = q` and none otherwise; and the
  minimum over one axis as a fold of `min` from the top, which is the infimum.
-/
import proofs.«110562_j74887049773256_1_alg».proof.Proof.Gen.ReferenceIdeal.Read
import proofs.«110562_j74887049773256_1_alg».proof.Proof.Spec
import proofs.«110562_j74887049773256_1_alg».proof.Proof.LibPointScatter
import Idealize.ShloMosaic.Lib.Pipeline.Value
import Idealize.ShloMosaic.Lib.ValueIdx
import Idealize.ShloMosaic.PureOps.Ideal.Laws
import Idealize.ShloMosaic.PureOps.Reduce
import Mathlib.Data.Finset.Lattice.Fold
import Mathlib.Algebra.BigOperators.Group.Finset.Piecewise

noncomputable section

open scoped BigOperators

namespace Cert.ReferenceIdeal.RefVal

open Cert.ReferenceIdeal Cert.ReferenceIdeal.Gen Cert.ReferenceIdeal.Read Idealize.ShloMosaic Idealize.ShloMosaic.ValueIdx
open Cert.LibPointScatter (ptScatterDims scatterAdd_pt_apply)

/-- The two inputs, as the stages take them: matrices of extended reals on rank-2 indices. -/
abbrev InX : Type := (⟨S8192x1024, .f32⟩ : BufTy).Contents (Elt Ideal)
abbrev InY : Type := (⟨S32768x1024, .f32⟩ : BufTy).Contents (Elt Ideal)

/-! ## The normalised inputs -/

/-- The first input's row sums of squares: the sum starts from zero. -/
theorem rowSq_X (X : InX) (r : Fin 8192) : val_main_call0_v1 (F := Ideal) X (ix1 r) = Spec.rowSq X r := by
  rw [val_main_call0_v1_apply, val_main_call0_cst_apply, Ideal.ofBits_def, Ideal.ofBits_zero_f32, zero_add]
  unfold Spec.rowSq
  refine Finset.sum_congr rfl fun k _ => ?_
  have e : idx_main_call0_v1 (ix1 r) k = ix2 r k :=
    funext fun a => Fin.ext (by match a with | ⟨0, _⟩ => rfl | ⟨1, _⟩ => rfl)
  rw [val_main_call0_v0_apply, e]; rfl

/-- The second input's. -/
theorem rowSq_Y (Y : InY) (q : Fin 32768) : val_main_call1_v1 (F := Ideal) Y (ix1 q) = Spec.rowSq Y q := by
  rw [val_main_call1_v1_apply, val_main_call1_cst_apply, Ideal.ofBits_def, Ideal.ofBits_zero_f32, zero_add]
  unfold Spec.rowSq
  refine Finset.sum_congr rfl fun k _ => ?_
  have e : idx_main_call1_v1 (ix1 q) k = ix2 q k :=
    funext fun a => Fin.ext (by match a with | ⟨0, _⟩ => rfl | ⟨1, _⟩ => rfl)
  rw [val_main_call1_v0_apply, e]; rfl

/-- An entry of the first input over the larger of its row's norm and the floor: the norm and the floor are each
    spread along the row before the maximum and the quotient are taken entry by entry. -/
theorem nrm_X (X : InX) (r : Fin 8192) (k : Fin 1024) : val_main_v4 (F := Ideal) X (ix2 r k) = Spec.nrmAt X r k := by
  have e3 : idx_main_v3 (ix2 r k) = (ix2 r (0 : Fin 1) : S8192x1.Idx) :=
    funext fun a => Fin.ext (by match a with | ⟨0, _⟩ => rfl | ⟨1, _⟩ => rfl)
  have e2 : idx_main_call0_v2 (ix2 r (0 : Fin 1) : S8192x1.Idx) = ix1 r :=
    funext fun a => Fin.ext (by match a with | ⟨0, _⟩ => rfl)
  rw [val_main_v4_apply, val_main_v3_apply, e3, val_main_v2_apply, val_main_v0_apply, val_main_call0_v2_apply, e2, rowSq_X,
    val_main_v1_apply, val_main_cst_apply]
  rfl

/-- The same for the second input. -/
theorem nrm_Y (Y : InY) (q : Fin 32768) (k : Fin 1024) : val_main_v9 (F := Ideal) Y (ix2 q k) = Spec.nrmAt Y q k := by
  have e8 : idx_main_v8 (ix2 q k) = (ix2 q (0 : Fin 1) : S32768x1.Idx) :=
    funext fun a => Fin.ext (by match a with | ⟨0, _⟩ => rfl | ⟨1, _⟩ => rfl)
  have e2 : idx_main_call1_v2 (ix2 q (0 : Fin 1) : S32768x1.Idx) = ix1 q :=
    funext fun a => Fin.ext (by match a with | ⟨0, _⟩ => rfl)
  rw [val_main_v9_apply, val_main_v8_apply, e8, val_main_v7_apply, val_main_v5_apply, val_main_call1_v2_apply, e2, rowSq_Y,
    val_main_v6_apply, val_main_cst_0_apply]
  rfl

/-! ## The distance before the diagonal is raised -/

/-- The normalised first input's row sums of squares. -/
theorem sq_X (X : InX) (r : Fin 8192) : val_main_v11 (F := Ideal) X (ix1 r) = Spec.rowSq (Spec.nrm X) r := by
  rw [val_main_v11_apply, val_main_cst_1_apply, Ideal.ofBits_def, Ideal.ofBits_zero_f32, zero_add]
  unfold Spec.rowSq
  refine Finset.sum_congr rfl fun k _ => ?_
  have e : idx_main_v11 (ix1 r) k = ix2 r k :=
    funext fun a => Fin.ext (by match a with | ⟨0, _⟩ => rfl | ⟨1, _⟩ => rfl)
  rw [val_main_v10_apply, e, nrm_X, Spec.nrm_ix2]; rfl

/-- The normalised second input's. -/
theorem sq_Y (Y : InY) (q : Fin 32768) : val_main_v14 (F := Ideal) Y (ix1 q) = Spec.rowSq (Spec.nrm Y) q := by
  rw [val_main_v14_apply, val_main_cst_2_apply, Ideal.ofBits_def, Ideal.ofBits_zero_f32, zero_add]
  unfold Spec.rowSq
  refine Finset.sum_congr rfl fun k _ => ?_
  have e : idx_main_v14 (ix1 q) k = ix2 q k :=
    funext fun a => Fin.ext (by match a with | ⟨0, _⟩ => rfl | ⟨1, _⟩ => rfl)
  rw [val_main_v13_apply, e, nrm_Y, Spec.nrm_ix2]; rfl

/-- The inner product of normalised row `r` of the first input with normalised row `q` of the second: the second
    factor of the product is the transposed matrix, read back at (q, k). -/
theorem dot_XY (X : InX) (Y : InY) (r : Fin 8192) (q : Fin 32768) :
    val_main_v20 (F := Ideal) X Y (ix2 r q) = ∑ k : Fin 1024, Spec.nrm X (ix2 r k) * Spec.nrm Y (ix2 q k) := by
  rw [val_main_v20_apply]
  refine Finset.sum_congr rfl fun k _ => ?_
  have el : lidx_main_v20 (ix2 r q) k = ix2 r k :=
    funext fun a => Fin.ext (by match a with | ⟨0, _⟩ => rfl | ⟨1, _⟩ => rfl)
  have er : ridx_main_v20 (ix2 r q) k = (ix2 k q : S1024x32768.Idx) :=
    funext fun a => Fin.ext (by match a with | ⟨0, _⟩ => rfl | ⟨1, _⟩ => rfl)
  have et : idx_main_v19 (ix2 k q : S1024x32768.Idx) = ix2 q k :=
    funext fun a => Fin.ext (by match a with | ⟨0, _⟩ => rfl | ⟨1, _⟩ => rfl)
  rw [el, er, val_main_v19_apply, et, nrm_X, nrm_Y, Spec.nrm_ix2, Spec.nrm_ix2]

/-- The distance of normalised row `r` to normalised row `q`: the root of the two squared norms less twice the inner
    product, clamped at zero. The squared norm of row `r` is spread along the columns and that of row `q` down the
    rows before they are added. -/
theorem base_at (X : InX) (Y : InY) (r : Fin 8192) (q : Fin 32768) :
    val_main_v26 (F := Ideal) X Y (ix2 r q)
      = Spec.baseAt (Spec.nrm X) (Spec.rowSq (Spec.nrm X)) (Spec.nrm Y) (Spec.rowSq (Spec.nrm Y)) r q := by
  have e16 : idx_main_v16 (ix2 r q) = (ix2 r (0 : Fin 1) : S8192x1.Idx) :=
    funext fun a => Fin.ext (by match a with | ⟨0, _⟩ => rfl | ⟨1, _⟩ => rfl)
  have e12 : idx_main_v12 (ix2 r (0 : Fin 1) : S8192x1.Idx) = ix1 r :=
    funext fun a => Fin.ext (by match a with | ⟨0, _⟩ => rfl)
  have e17 : idx_main_v17 (ix2 r q) = (ix2 (0 : Fin 1) q : S1x32768.Idx) :=
    funext fun a => Fin.ext (by match a with | ⟨0, _⟩ => rfl | ⟨1, _⟩ => rfl)
  have e15 : idx_main_v15 (ix2 (0 : Fin 1) q : S1x32768.Idx) = ix1 q :=
    funext fun a => Fin.ext (by match a with | ⟨0, _⟩ => rfl)
  rw [val_main_v26_apply, val_main_v25_apply, val_main_v23_apply, val_main_v18_apply, val_main_v16_apply, e16,
    val_main_v12_apply, e12, sq_X, val_main_v17_apply, e17, val_main_v15_apply, e15, sq_Y, val_main_v22_apply,
    val_main_v21_apply, val_main_cst_3_apply, dot_XY, val_main_v24_apply, val_main_cst_4_apply, Ideal.ofBits_def,
    Ideal.ofBits_def, Ideal.ofBits_zero_f32]
  rfl

/-! ## The table of index pairs -/

/-- Column 0 of the table is the first of the two joined columns. -/
theorem idx_col0 (k : Fin 8192) :
    val_main_v40 (F := Ideal) (ix2 k (0 : Fin 2)) = val_main_v38 (F := Ideal) (ix2 k (0 : Fin 1)) := by
  unfold val_main_v40
  refine concatenate_pair_apply_left (t := S8192x2) (s₁ := S8192x1) (s₂ := S8192x1) (1 : Fin 2) _ _
    concatenates_S8192x1_S8192x1_S8192x2_d1 (ix2 k (0 : Fin 2)) rfl (ix2 k (0 : Fin 1) : S8192x1.Idx) ?_
  intro b
  match b with
  | ⟨0, _⟩ => rfl
  | ⟨1, _⟩ => rfl

/-- Column 1 is the second: its coordinate on the joined axis is the first column's extent, one, less. -/
theorem idx_col1 (k : Fin 8192) :
    val_main_v40 (F := Ideal) (ix2 k (1 : Fin 2)) = val_main_v39 (F := Ideal) (ix2 k (0 : Fin 1)) := by
  unfold val_main_v40
  refine concatenate_pair_apply_right (t := S8192x2) (s₁ := S8192x1) (s₂ := S8192x1) (1 : Fin 2) _ _
    concatenates_S8192x1_S8192x1_S8192x2_d1 (ix2 k (1 : Fin 2)) rfl rfl (ix2 k (0 : Fin 1) : S8192x1.Idx) ?_ ?_
  · intro b hb
    match b with
    | ⟨0, _⟩ => rfl
    | ⟨1, _⟩ => exact absurd rfl hb
  · rfl

/-- A natural number below 2³¹ written as a 32-bit word reads back, signed, as itself. -/
theorem toInt_ofNat_small (n : Nat) (h : n < 2147483648) : (BitVec.ofNat 32 n).toInt = (n : Int) := by
  have h1 : (BitVec.ofNat 32 n).toNat = n := by
    rw [BitVec.toNat_ofNat]; exact Nat.mod_eq_of_lt (by omega)
  rw [BitVec.toInt_eq_toNat_cond, h1, if_pos (by omega)]

/-- The wrap of a negative index, `select (v < 0) (v + c) v`, leaves such a word alone: it is not negative. -/
theorem wrap_small (n : Nat) (c : BitVec 32) (h : n < 2147483648) :
    Scalar.select (IntOp.cmpi .slt (BitVec.ofNat 32 n) 0#32) (IntOp.addi (BitVec.ofNat 32 n) c) (BitVec.ofNat 32 n)
      = BitVec.ofNat 32 n := by
  have hi := toInt_ofNat_small n h
  have hs : (BitVec.ofNat 32 n).slt 0#32 = false := by
    simp only [BitVec.slt, hi]; simp
  unfold Scalar.select IntOp.cmpi
  simp only [hs]
  rfl

/-- The first component of pair `k` is the word `k`: the row counter wrapped by the row count. -/
theorem idx_word0 (k : Fin 8192) : val_main_v40 (F := Ideal) (ix2 k (0 : Fin 2)) = BitVec.ofNat 32 k.val := by
  have e : idx_main_v38 (ix2 k (0 : Fin 1) : S8192x1.Idx) = ix1 k :=
    funext fun a => Fin.ext (by match a with | ⟨0, _⟩ => rfl)
  rw [idx_col0, val_main_v38_apply, e, val_main_v32_apply, val_main_v29_apply, val_main_v31_apply, val_main_v28_apply,
    val_main_v30_apply, val_main_v27_apply, val_main_c_apply, val_main_c_5_apply]
  exact wrap_small k.val _ (by have := k.isLt; omega)

/-- The second component of pair `k` is the word `k` too: the same counter wrapped by the column count. -/
theorem idx_word1 (k : Fin 8192) : val_main_v40 (F := Ideal) (ix2 k (1 : Fin 2)) = BitVec.ofNat 32 k.val := by
  have e : idx_main_v39 (ix2 k (0 : Fin 1) : S8192x1.Idx) = ix1 k :=
    funext fun a => Fin.ext (by match a with | ⟨0, _⟩ => rfl)
  rw [idx_col1, val_main_v39_apply, e, val_main_v37_apply, val_main_v34_apply, val_main_v36_apply, val_main_v33_apply,
    val_main_v35_apply, val_main_v27_apply, val_main_c_6_apply, val_main_c_7_apply]
  exact wrap_small k.val _ (by have := k.isLt; omega)

/-! ## The diagonal raised by one -/

/-- The program's dimension numbers are those of an entry scatter into a matrix. -/
theorem scatter_dims_eq : (scatter_S8192x32768_S8192x2_S8192_n_01_01_1 : ScatterDims S8192x32768 S8192x2 S8192)
    = ptScatterDims 8192 32768 8192 scatter_S8192x32768_S8192x2_S8192_n_01_01_1_wf := rfl

/-- Every update is one. -/
theorem upd_apply (e : Fin 8192) : val_main_v41 (F := Ideal) (ix1 e) = Spec.oneW := by
  rw [val_main_v41_apply, val_main_cst_8_apply]; rfl

/-- The scatter-add at (r, q): update `e` lands there exactly when the pair (e, e) is (r, q), that is when `e = r` and
    `r = q`; so the entry is raised by one when `r = q` and unchanged otherwise. -/
theorem scatter_at (X : InX) (Y : InY) (r : Fin 8192) (q : Fin 32768) :
    val_main_v42 (F := Ideal) X Y (ix2 r q)
      = if r.val = q.val then val_main_v26 (F := Ideal) X Y (ix2 r q) + Spec.oneW else val_main_v26 (F := Ideal) X Y (ix2 r q) := by
  unfold val_main_v42
  generalize val_main_v26 (F := Ideal) X Y = x
  rw [scatter_dims_eq]
  refine (scatterAdd_pt_apply scatter_S8192x32768_S8192x2_S8192_n_01_01_1_wf x (val_main_v40 (F := Ideal))
    (val_main_v41 (F := Ideal)) r q).trans ?_
  have hterm : ∀ e : Fin 8192,
      (if (val_main_v40 (F := Ideal) (ix2 e (0 : Fin 2))).toInt = (r.val : Int)
          ∧ (val_main_v40 (F := Ideal) (ix2 e (1 : Fin 2))).toInt = (q.val : Int)
        then val_main_v41 (F := Ideal) (ix1 e) else 0)
      = if e = r ∧ r.val = q.val then Spec.oneW else 0 := by
    intro e
    rw [idx_word0, idx_word1, toInt_ofNat_small e.val (by have := e.isLt; omega), upd_apply]
    have hiff : ((e.val : Int) = (r.val : Int) ∧ (e.val : Int) = (q.val : Int)) ↔ (e = r ∧ r.val = q.val) := by
      constructor
      · rintro ⟨h1, h2⟩; exact ⟨Fin.ext (by omega), by omega⟩
      · rintro ⟨h1, h2⟩; subst h1; exact ⟨rfl, by omega⟩
    simp only [hiff]
  rw [Finset.sum_congr rfl fun e _ => hterm e]
  by_cases hP : r.val = q.val
  · rw [if_pos hP]
    simp only [hP, and_true, Finset.sum_ite_eq', Finset.mem_univ, if_true]
  · rw [if_neg hP]
    simp only [hP, and_false, if_false, Finset.sum_const_zero, add_zero]

/-! ## The least of each row -/

/-- Dropping the column axis of the distance matrix leaves its rows. -/
theorem reduces_cols : S8192x32768.Reduces [1] S8192 := by decide

/-- Row `r` with column `k` put back is (r, k). -/
theorem lift_cols (r : Fin 8192) (k : Fin (S8192x32768.size 1)) :
    reduces_cols.lift (ix1 r) k = ix2 r (⟨k.val, k.isLt⟩ : Fin 32768) := by
  funext c; apply Fin.ext
  match c with
  | ⟨0, _⟩ => rfl
  | ⟨1, _⟩ => rfl

/-- The minimum over one axis is a fold of `min`, commutative and associative, over that axis's coordinates; its
    initial value +∞ is the top of the extended reals, so the fold is the infimum over the columns. -/
theorem min_row (X : InX) (Y : InY) (r : Fin 8192) :
    val_main_v43 (F := Ideal) X Y (ix1 r) = Finset.univ.inf fun q : Fin 32768 => val_main_v42 (F := Ideal) X Y (ix2 r q) := by
  unfold val_main_v43
  generalize val_main_v42 (F := Ideal) X Y = x
  refine (Host.reduce_eq_fold_single (α := Ideal .f32) (s := S8192x32768) (t := S8192) (a := (1 : Fin 2)) (u := S_)
    (FloatOps.minimumf (F := Ideal) (φ := .f32)) x (val_main_cst_9 (F := Ideal)) reducesTo_S8192x32768_S8192_d1 reduces_cols
    h_S_ (ix1 r)).trans ?_
  have hf : (x ∘ reduces_cols.lift (ix1 r)) = fun q : Fin 32768 => x (ix2 r q) :=
    funext fun k => congrArg x (lift_cols r k)
  have htop : val_main_cst_9 (F := Ideal) (Shape.Idx.first h_S_) = (⊤ : EReal) := by
    rw [val_main_cst_9_apply, Ideal.ofBits_def]; simp [Ideal.ofBits, Ideal.ieee]
  rw [htop]
  refine Eq.trans ?_ (Spec.fold_min_top fun q : Fin 32768 => x (ix2 r q))
  exact congrArg (fun f => Finset.fold min (⊤ : EReal) f (Finset.univ : Finset (Fin 32768))) hf

/-- THE ROW MINIMA: the stage after the minimum holds, at row `r`, the least over all rows `q` of the second input of
    the distance between the normalised rows, the diagonal raised by one. -/
theorem ref_min (X : (⟨S8192x1024, .f32⟩ : BufTy).Contents (Elt Ideal)) (Y : (⟨S32768x1024, .f32⟩ : BufTy).Contents (Elt Ideal)) :
    Read.val_main_v43 (F := Ideal) X Y = fun i => Spec.minDist X Y (i 0) := by
  funext i
  obtain ⟨r, rfl⟩ : ∃ r : Fin 8192, i = ix1 r := ⟨i 0, eq_ix1 i⟩
  rw [min_row]
  show _ = Spec.minDist X Y r
  unfold Spec.minDist
  refine Finset.inf_congr rfl fun q _ => ?_
  rw [scatter_at, base_at]
  rfl

end Cert.ReferenceIdeal.RefVal

end
-- ==== Proof.lean ====
/- The certificate. A row-normalising call on each of the two inputs, a tiled nearest-row search carrying a running
   minimum through the column tiles, and a closing mean of logarithms, against the plain formulation that builds the
   whole matrix of distances, raises its leading diagonal by one through a scatter, and reduces each row by a minimum.
   Both compute, for each row of the first input, the least distance to a row of the second (`Spec.minDist`), because
   a minimum over all columns is the minimum over the tiles of the minima within the tiles; the closing operations are
   the same function of that vector on both sides. The three frames: each kernel program's run through its five items
   ends with the arguments as launched; the reference's is its run with the result dropped. The four rewrites of the
   idealization are round trips through a narrower float format, each the identity on exact values. -/
import proofs.«110562_j74887049773256_1_alg».proof.Defs
import proofs.«110562_j74887049773256_1_alg».proof.Proof.Gen.Kernel
import proofs.«110562_j74887049773256_1_alg».proof.Proof.Gen.KernelIdeal
import proofs.«110562_j74887049773256_1_alg».proof.Proof.Gen.ReferenceIdeal
import proofs.«110562_j74887049773256_1_alg».proof.Proof.Gen.Pre_finite_inputs
import proofs.«110562_j74887049773256_1_alg».proof.Proof.Gen.ReferenceIdeal.Run
import proofs.«110562_j74887049773256_1_alg».proof.Proof.Gen.ReferenceIdeal.Read
import proofs.«110562_j74887049773256_1_alg».proof.Proof.K.Run
import proofs.«110562_j74887049773256_1_alg».proof.Proof.KI.Run
import proofs.«110562_j74887049773256_1_alg».proof.Proof.KI.Mid
import proofs.«110562_j74887049773256_1_alg».proof.Proof.RefTail
import proofs.«110562_j74887049773256_1_alg».proof.Proof.Spec
import proofs.«110562_j74887049773256_1_alg».proof.Proof.KI.Kmin
import proofs.«110562_j74887049773256_1_alg».proof.Proof.RefVal
import Idealize.ShloMosaic.Adequacy
import Idealize.ShloMosaic.Init

noncomputable section

namespace Cert.Proof

open Idealize.ShloMosaic Idealize.ShloMosaic.TcCoe Idealize.SL.Sem

/-- The closing host operations are one function on both sides: the same operations at the same constants. -/
theorem tail_eq (v : (⟨1, ![8192]⟩ : Shape).Idx → EReal) :
    Cert.KernelIdeal.Hand.tailK (F := Ideal) v = Cert.ReferenceIdeal.RefTail.tailR (F := Ideal) v := rfl

/-- The kernel's column of minima, flattened, is the vector of least distances. -/
theorem kernel_min (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    (shapeCast Cert.KernelIdeal.S8192 ((Cert.KernelIdeal.Hand.dat2 (Cert.KernelIdeal.Hand.V3 m ρ) c).arrAt 4 Cert.KernelIdeal.cfg2.N : Vec Ideal Cert.KernelIdeal.S8192x1 .f32) Cert.KernelIdeal.Gen.shapeCasts_S8192x1_S8192 : Vec Ideal Cert.KernelIdeal.S8192 .f32)
      = fun i => Cert.Spec.minDist (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (i 0) := by
  exact Cert.KernelIdeal.Kmin.kernel_min m ρ c

/-- The reference's stage of row minima is the vector of least distances. -/
theorem ref_min (X : (⟨Cert.ReferenceIdeal.S8192x1024, .f32⟩ : BufTy).Contents (Elt Ideal)) (Y : (⟨Cert.ReferenceIdeal.S32768x1024, .f32⟩ : BufTy).Contents (Elt Ideal)) :
    Cert.ReferenceIdeal.Read.val_main_v43 (F := Ideal) X Y = fun i => Cert.Spec.minDist X Y (i 0) := by
  exact Cert.ReferenceIdeal.RefVal.ref_min X Y

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Value.run (F := Ideal) m ρ),
  ⟨IdealRules.truncf_extf.statement _ .f32 .bf16, IdealRules.truncf_extf.statement _ .f32 .bf16,
    IdealRules.truncf_extf.statement _ .f32 .bf16, IdealRules.truncf_extf.statement _ .f32 .bf16⟩,
  fun m ρ m' ρ' _ hagree =>
    ⟨fun c => Cert.KernelIdeal.Hand.tailK (F := Ideal) (fun i => Cert.Spec.minDist
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (i 0)),
      (θ_run Cert.KernelIdeal.defs _ _).mono (fun r h c =>
        ⟨(h c _ (Cert.KernelIdeal.Hand.mem_uc Cert.KernelIdeal.main_v10 (by decide))).trans
            ((Cert.KernelIdeal.Hand.W5_main_v10 m ρ c).trans (congrArg Cert.KernelIdeal.Hand.tailK (kernel_min m ρ c))),
          (h c _ (Cert.KernelIdeal.Hand.mem_uc Cert.KernelIdeal.main_arg0 (by decide))).trans (Cert.KernelIdeal.Hand.W5_main_arg0 m ρ c),
          (h c _ (Cert.KernelIdeal.Hand.mem_uc Cert.KernelIdeal.main_arg1 (by decide))).trans (Cert.KernelIdeal.Hand.W5_main_arg1 m ρ c)⟩)
        (Cert.KernelIdeal.Hand.run_all (F := Ideal) m ρ),
      (θ_run Cert.ReferenceIdeal.defs _ _).mono (fun _ h c =>
        ⟨by rw [(h c).1, Cert.ReferenceIdeal.Read.val_main_v49_eq, Cert.ReferenceIdeal.RefTail.val_main_v49_tail, ref_min, (hagree c).1, (hagree c).2]
            exact (tail_eq _).symm,
          (h c).2⟩)
        (Cert.ReferenceIdeal.Value.run (F := Ideal) m' ρ')⟩⟩

end Cert.Proof

end
